-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x32 : Shape := ⟨2, ![16384, 32]⟩
abbrev S32x4096 : Shape := ⟨2, ![32, 4096]⟩
abbrev S4096 : Shape := ⟨1, ![4096]⟩
abbrev S4096x32 : Shape := ⟨2, ![4096, 32]⟩
abbrev S32 : Shape := ⟨1, ![32]⟩
abbrev S64x4096 : Shape := ⟨2, ![64, 4096]⟩
abbrev S4096x128 : Shape := ⟨2, ![4096, 128]⟩
abbrev S128 : Shape := ⟨1, ![128]⟩
abbrev S_ : Shape := ⟨0, ![]⟩

class Facts : Prop where
  bcast_S_S16384x32 : S_.BroadcastsInDim S16384x32 (![] : Fin 0 → Fin S16384x32.rank)
  reducesTo_S16384x32_S_d0_1 : S16384x32.ReducesTo [0, 1] S_
  h_S_ : 0 < S_.numel
  bcast_S_S32x4096 : S_.BroadcastsInDim S32x4096 (![] : Fin 0 → Fin S32x4096.rank)
  reducesTo_S32x4096_S_d0_1 : S32x4096.ReducesTo [0, 1] S_
  bcast_S_S4096 : S_.BroadcastsInDim S4096 (![] : Fin 0 → Fin S4096.rank)
  reducesTo_S4096_S_d0 : S4096.ReducesTo [0] S_
  bcast_S_S4096x32 : S_.BroadcastsInDim S4096x32 (![] : Fin 0 → Fin S4096x32.rank)
  reducesTo_S4096x32_S_d0_1 : S4096x32.ReducesTo [0, 1] S_
  bcast_S_S32 : S_.BroadcastsInDim S32 (![] : Fin 0 → Fin S32.rank)
  reducesTo_S32_S_d0 : S32.ReducesTo [0] S_
  bcast_S_S64x4096 : S_.BroadcastsInDim S64x4096 (![] : Fin 0 → Fin S64x4096.rank)
  reducesTo_S64x4096_S_d0_1 : S64x4096.ReducesTo [0, 1] S_
  bcast_S_S4096x128 : S_.BroadcastsInDim S4096x128 (![] : Fin 0 → Fin S4096x128.rank)
  reducesTo_S4096x128_S_d0_1 : S4096x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg7 : FVec F S4096 .f32) (main_arg8 : FVec F S4096x128 .f32) (main_arg9 : FVec F S128 .f32) (main_v33 : IVec S_ 1) : IVec S_ 1 :=
  let main_v34 : FVec F S4096 .f32 := Host.absf main_arg7
  let main_cst_12 : FVec F S_ .f32 := constant S_ .f32 0x7F800000#32
  let main_v35 : FVec F S4096 .f32 := broadcastInDim S4096 ![] bcast_S_S4096 main_cst_12
  let main_v36 : IVec S4096 1 := cmpf .olt main_v34 main_v35
  let main_c_13 : IVec S_ 1 := constantI S_ 1 1#1
  let main_v37 : IVec S_ 1 := (fun x v => Host.reduce IntOp.andi x v reducesTo_S4096_S_d0 h_S_) main_v36 main_c_13
  let main_v38 : IVec S_ 1 := andi main_v33 main_v37
  let main_v39 : FVec F S4096x128 .f32 := Host.absf main_arg8
  let main_cst_14 : FVec F S_ .f32 := constant S_ .f32 0x7F800000#32
  let main_v40 : FVec F S4096x128 .f32 := broadcastInDim S4096x128 ![] bcast_S_S4096x128 main_cst_14
  let main_v41 : IVec S4096x128 1 := cmpf .olt main_v39 main_v40
  let main_c_15 : IVec S_ 1 := constantI S_ 1 1#1
  let main_v42 : IVec S_ 1 := (fun x v => Host.reduce IntOp.andi x v reducesTo_S4096x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg4 : FVec F S4096x32 .f32) (main_arg5 : FVec F S32 .f32) (main_arg6 : FVec F S64x4096 .f32) (main_arg7 : FVec F S4096 .f32) (main_arg8 : FVec F S4096x128 .f32) (main_arg9 : FVec F S128 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096x32 .f32 := Host.absf main_arg4
  let main_cst_6 : FVec F S_ .f32 := constant S_ .f32 0x7F800000#32
  let main_v20 : FVec F S4096x32 .f32 := broadcastInDim S4096x32 ![] bcast_S_S4096x32 main_cst_6
  let main_v21 : IVec S4096x32 1 := cmpf .olt main_v19 main_v20
  let main_c_7 : IVec S_ 1 := constantI S_ 1 1#1
  let main_v22 : IVec S_ 1 := (fun x v => Host.reduce IntOp.andi x v reducesTo_S4096x32_S_d0_1 h_S_) main_v21 main_c_7
  let main_v23 : IVec S_ 1 := andi main_v18 main_v22
  let main_v24 : FVec F S32 .f32 := Host.absf main_arg5
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S64x4096 .f32 := Host.absf main_arg6
  let main_cst_10 : FVec F S_ .f32 := constant S_ .f32 0x7F800000#32
  let main_v30 : FVec F S64x4096 .f32 := broadcastInDim S64x4096 ![] bcast_S_S64x4096 main_cst_10
  let main_v31 : IVec S64x4096 1 := cmpf .olt main_v29 main_v30
  let main_c_11 : IVec S_ 1 := constantI S_ 1 1#1
  let main_v32 : IVec S_ 1 := (fun x v => Host.reduce IntOp.andi x v reducesTo_S64x4096_S_d0_1 h_S_) main_v31 main_c_11
  let main_v33 : IVec S_ 1 := andi main_v28 main_v32
  fn_part2 (F := F) main_arg7 main_arg8 main_arg9 main_v33

def fn {F : FTy → Type} [FloatOps F] (main_arg0 : FVec F S16384x32 .f32) (main_arg1 : FVec F S16384x32 .f32) (main_arg2 : FVec F S32x4096 .f32) (main_arg3 : FVec F S4096 .f32) (main_arg4 : FVec F S4096x32 .f32) (main_arg5 : FVec F S32 .f32) (main_arg6 : FVec F S64x4096 .f32) (main_arg7 : FVec F S4096 .f32) (main_arg8 : FVec F S4096x128 .f32) (main_arg9 : FVec F S128 .f32) : IVec S_ 1 :=
  let main_v0 : FVec F S16384x32 .f32 := Host.absf main_arg0
  let main_cst : FVec F S_ .f32 := constant S_ .f32 0x7F800000#32
  let main_v1 : FVec F S16384x32 .f32 := broadcastInDim S16384x32 ![] bcast_S_S16384x32 main_cst
  let main_v2 : IVec S16384x32 1 := cmpf .olt main_v0 main_v1
  let main_c : IVec S_ 1 := constantI S_ 1 1#1
  let main_v3 : IVec S_ 1 := (fun x v => Host.reduce IntOp.andi x v reducesTo_S16384x32_S_d0_1 h_S_) main_v2 main_c
  let main_v4 : FVec F S16384x32 .f32 := Host.absf main_arg1
  let main_cst_0 : FVec F S_ .f32 := constant S_ .f32 0x7F800000#32
  let main_v5 : FVec F S16384x32 .f32 := broadcastInDim S16384x32 ![] bcast_S_S16384x32 main_cst_0
  let main_v6 : IVec S16384x32 1 := cmpf .olt main_v4 main_v5
  let main_c_1 : IVec S_ 1 := constantI S_ 1 1#1
  let main_v7 : IVec S_ 1 := (fun x v => Host.reduce IntOp.andi x v reducesTo_S16384x32_S_d0_1 h_S_) main_v6 main_c_1
  let main_v8 : IVec S_ 1 := andi main_v3 main_v7
  let main_v9 : FVec F S32x4096 .f32 := Host.absf main_arg2
  let main_cst_2 : FVec F S_ .f32 := constant S_ .f32 0x7F800000#32
  let main_v10 : FVec F S32x4096 .f32 := broadcastInDim S32x4096 ![] bcast_S_S32x4096 main_cst_2
  let main_v11 : IVec S32x4096 1 := cmpf .olt main_v9 main_v10
  let main_c_3 : IVec S_ 1 := constantI S_ 1 1#1
  let main_v12 : IVec S_ 1 := (fun x v => Host.reduce IntOp.andi x v reducesTo_S32x4096_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_arg6 main_arg7 main_arg8 main_arg9 main_v13 main_v16
-- ==== Kernel.lean ====
abbrev S16384x32 : Shape := ⟨2, ![16384, 32]⟩
abbrev S32x4096 : Shape := ⟨2, ![32, 4096]⟩
abbrev S4096 : Shape := ⟨1, ![4096]⟩
abbrev S4096x32 : Shape := ⟨2, ![4096, 32]⟩
abbrev S32 : Shape := ⟨1, ![32]⟩
abbrev S64x4096 : Shape := ⟨2, ![64, 4096]⟩
abbrev S4096x128 : Shape := ⟨2, ![4096, 128]⟩
abbrev S128 : Shape := ⟨1, ![128]⟩
abbrev S_ : Shape := ⟨0, ![]⟩
abbrev S16384x1 : Shape := ⟨2, ![16384, 1]⟩
abbrev S16384x33 : Shape := ⟨2, ![16384, 33]⟩
abbrev S8x2048x33 : Shape := ⟨3, ![8, 2048, 33]⟩
abbrev S8x4096x33 : Shape := ⟨3, ![8, 4096, 33]⟩
abbrev S32768x33 : Shape := ⟨2, ![32768, 33]⟩
abbrev S1x4096 : Shape := ⟨2, ![1, 4096]⟩
abbrev S33x4096 : Shape := ⟨2, ![33, 4096]⟩
abbrev S65x4096 : Shape := ⟨2, ![65, 4096]⟩
abbrev S1x32 : Shape := ⟨2, ![1, 32]⟩
abbrev S1x128 : Shape := ⟨2, ![1, 128]⟩
abbrev S16384x128 : Shape := ⟨2, ![16384, 128]⟩
abbrev S8192x33 : Shape := ⟨2, ![8192, 33]⟩
abbrev S4096x33 : Shape := ⟨2, ![4096, 33]⟩
abbrev S33x512 : Shape := ⟨2, ![33, 512]⟩
abbrev S4096x512 : Shape := ⟨2, ![4096, 512]⟩
abbrev S512x32 : Shape := ⟨2, ![512, 32]⟩
abbrev S2048x32 : Shape := ⟨2, ![2048, 32]⟩
abbrev S2048x1 : Shape := ⟨2, ![2048, 1]⟩
abbrev S2048x65 : Shape := ⟨2, ![2048, 65]⟩
abbrev S65x512 : Shape := ⟨2, ![65, 512]⟩
abbrev S2048x512 : Shape := ⟨2, ![2048, 512]⟩
abbrev S512x128 : Shape := ⟨2, ![512, 128]⟩
abbrev S2048x128 : Shape := ⟨2, ![2048, 128]⟩

abbrev nBuf : Space → Nat
  | .hbm => 31
  | .vmem => 10
  | .smem => 0
  | _ => 0

abbrev bufTy : (tb : Table) → Fin (tcTables nBuf tb) → BufTy
  | .hbm, ⟨0, _⟩ => ⟨S16384x32, .f32⟩
  | .hbm, ⟨1, _⟩ => ⟨S16384x32, .f32⟩
  | .hbm, ⟨2, _⟩ => ⟨S32x4096, .f32⟩
  | .hbm, ⟨3, _⟩ => ⟨S4096, .f32⟩
  | .hbm, ⟨4, _⟩ => ⟨S4096x32, .f32⟩
  | .hbm, ⟨5, _⟩ => ⟨S32, .f32⟩
  | .hbm, ⟨6, _⟩ => ⟨S64x4096, .f32⟩
  | .hbm, ⟨7, _⟩ => ⟨S4096, .f32⟩
  | .hbm, ⟨8, _⟩ => ⟨S4096x128, .f32⟩
  | .hbm, ⟨9, _⟩ => ⟨S128, .f32⟩
  | .hbm, ⟨10, _⟩ => ⟨S_, .f32⟩
  | .hbm, ⟨11, _⟩ => ⟨S16384x1, .f32⟩
  | .hbm, ⟨12, _⟩ => ⟨S16384x33, .f32⟩
  | .hbm, ⟨13, _⟩ => ⟨S16384x33, .bf16⟩
  | .hbm, ⟨14, _⟩ => ⟨S16384x33, .f32⟩
  | .hbm, ⟨15, _⟩ => ⟨S16384x33, .bf16⟩
  | .hbm, ⟨16, _⟩ => ⟨S8x2048x33, .bf16⟩
  | .hbm, ⟨17, _⟩ => ⟨S8x2048x33, .bf16⟩
  | .hbm, ⟨18, _⟩ => ⟨S8x4096x33, .bf16⟩
  | .hbm, ⟨19, _⟩ => ⟨S32768x33, .bf16⟩
  | .hbm, ⟨20, _⟩ => ⟨S1x4096, .f32⟩
  | .hbm, ⟨21, _⟩ => ⟨S33x4096, .f32⟩
  | .hbm, ⟨22, _⟩ => ⟨S33x4096, .bf16⟩
  | .hbm, ⟨23, _⟩ => ⟨S1x4096, .f32⟩
  | .hbm, ⟨24, _⟩ => ⟨S65x4096, .f32⟩
  | .hbm, ⟨25, _⟩ => ⟨S65x4096, .bf16⟩
  | .hbm, ⟨26, _⟩ => ⟨S4096x32, .bf16⟩
  | .hbm, ⟨27, _⟩ => ⟨S1x32, .f32⟩
  | .hbm, ⟨28, _⟩ => ⟨S4096x128, .bf16⟩
  | .hbm, ⟨29, _⟩ => ⟨S1x128, .f32⟩
  | .hbm, ⟨30, _⟩ => ⟨S16384x128, .f32⟩
  | .local _ .vmem, ⟨0, _⟩ => ⟨S8192x33, .bf16⟩
  | .local _ .vmem, ⟨1, _⟩ => ⟨S8192x33, .bf16⟩
  | .local _ .vmem, ⟨2, _⟩ => ⟨S33x4096, .bf16⟩
  | .local _ .vmem, ⟨3, _⟩ => ⟨S4096x32, .bf16⟩
  | .local _ .vmem, ⟨4, _⟩ => ⟨S1x32, .f32⟩
  | .local _ .vmem, ⟨5, _⟩ => ⟨S65x4096, .bf16⟩
  | .local _ .vmem, ⟨6, _⟩ => ⟨S4096x128, .bf16⟩
  | .local _ .vmem, ⟨7, _⟩ => ⟨S1x128, .f32⟩
  | .local _ .vmem, ⟨8, _⟩ => ⟨S4096x128, .f32⟩
  | .local _ .vmem, ⟨9, _⟩ => ⟨S4096x128, .f32⟩
  | _, _ => ⟨S16384x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x33 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S33x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x32 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S65x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4096x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S_S16384x1 : S_.BroadcastsInDim S16384x1 (![] : Fin 0 → Fin S16384x1.rank)
  concatenates_S16384x32_S16384x1_S16384x33_d1 : Shape.Concatenates [S16384x32, S16384x1] S16384x33 1
  bitsLt_bf16_f32 : FTy.bits .bf16 < FTy.bits .f32
  shapeCasts_S16384x33_S8x2048x33 : S16384x33.ShapeCasts S8x2048x33
  concatenates_S8x2048x33_S8x2048x33_S8x4096x33_d1 : Shape.Concatenates [S8x2048x33, S8x2048x33] S8x4096x33 1
  shapeCasts_S8x4096x33_S32768x33 : S8x4096x33.ShapeCasts S32768x33
  bcast_S4096_S1x4096_1 : S4096.BroadcastsInDim S1x4096 (![1] : Fin 1 → Fin S1x4096.rank)
  concatenates_S32x4096_S1x4096_S33x4096_d0 : Shape.Concatenates [S32x4096, S1x4096] S33x4096 0
  concatenates_S64x4096_S1x4096_S65x4096_d0 : Shape.Concatenates [S64x4096, S1x4096] S65x4096 0
  shapeCasts_S32_S1x32 : S32.ShapeCasts S1x32
  shapeCasts_S128_S1x128 : S128.ShapeCasts S1x128
  inb_S8192x33_S4096x33_0_0 : ∀ a, (![0, 0] : Fin 2 → Nat) a + S4096x33.size a ≤ S8192x33.size a
  h_S4096x33 : 0 < S4096x33.numel
  shapeCasts_S4096x33_S4096x33 : S4096x33.ShapeCasts S4096x33
  inb_S1x32_S1x32_0_0 : ∀ a, (![0, 0] : Fin 2 → Nat) a + S1x32.size a ≤ S1x32.size a
  h_S1x32 : 0 < S1x32.numel
  shapeCasts_S1x32_S1x32 : S1x32.ShapeCasts S1x32
  inb_S33x4096_S33x512_0_0 : ∀ a, (![0, 0] : Fin 2 → Nat) a + S33x512.size a ≤ S33x4096.size a
  h_S33x512 : 0 < S33x512.numel
  shapeCasts_S33x512_S33x512 : S33x512.ShapeCasts S33x512
  inb_S4096x32_S512x32_0_0 : ∀ a, (![0, 0] : Fin 2 → Nat) a + S512x32.size a ≤ S4096x32.size a
  h_S512x32 : 0 < S512x32.numel
  shapeCasts_S512x32_S512x32 : S512x32.ShapeCasts S512x32
  broadcasts_S1x32_S4096x32 : S1x32.Broadcasts S4096x32
  inb_S33x4096_S33x512_0_512 : ∀ a, (![0, 512] : Fin 2 → Nat) a + S33x512.size a ≤ S33x4096.size a
  inb_S4096x32_S512x32_512_0 : ∀ a, (![512, 0] : Fin 2 → Nat) a + S512x32.size a ≤ S4096x32.size a
  inb_S33x4096_S33x512_0_1024 : ∀ a, (![0, 1024] : Fin 2 → Nat) a + S33x512.size a ≤ S33x4096.size a
  inb_S4096x32_S512x32_1024_0 : ∀ a, (![1024, 0] : Fin 2 → Nat) a + S512x32.size a ≤ S4096x32.size a
  inb_S33x4096_S33x512_0_1536 : ∀ a, (![0, 1536] : Fin 2 → Nat) a + S33x512.size a ≤ S33x4096.size a
  inb_S4096x32_S512x32_1536_0 : ∀ a, (![1536, 0] : Fin 2 → Nat) a + S512x32.size a ≤ S4096x32.size a
  inb_S33x4096_S33x512_0_2048 : ∀ a, (![0, 2048] : Fin 2 → Nat) a + S33x512.size a ≤ S33x4096.size a
  inb_S4096x32_S512x32_2048_0 : ∀ a, (![2048, 0] : Fin 2 → Nat) a + S512x32.size a ≤ S4096x32.size a
  inb_S33x4096_S33x512_0_2560 : ∀ a, (![0, 2560] : Fin 2 → Nat) a + S33x512.size a ≤ S33x4096.size a
  inb_S4096x32_S512x32_2560_0 : ∀ a, (![2560, 0] : Fin 2 → Nat) a + S512x32.size a ≤ S4096x32.size a
  inb_S33x4096_S33x512_0_3072 : ∀ a, (![0, 3072] : Fin 2 → Nat) a + S33x512.size a ≤ S33x4096.size a
  inb_S4096x32_S512x32_3072_0 : ∀ a, (![3072, 0] : Fin 2 → Nat) a + S512x32.size a ≤ S4096x32.size a
  inb_S33x4096_S33x512_0_3584 : ∀ a, (![0, 3584] : Fin 2 → Nat) a + S33x512.size a ≤ S33x4096.size a
  inb_S4096x32_S512x32_3584_0 : ∀ a, (![3584, 0] : Fin 2 → Nat) a + S512x32.size a ≤ S4096x32.size a
  slices_S4096x32_o0_0_S2048x32 : S4096x32.Slices ![0, 0] S2048x32
  slices_S4096x32_o2048_0_S2048x32 : S4096x32.Slices ![2048, 0] S2048x32
  concatenates_S2048x32_S2048x32_S2048x1_S2048x65_d1 : Shape.Concatenates [S2048x32, S2048x32, S2048x1] S2048x65 1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S65x4096_S65x512_0_0 : ∀ a, (![0, 0] : Fin 2 → Nat) a + S65x512.size a ≤ S65x4096.size a
  h_S65x512 : 0 < S65x512.numel
  shapeCasts_S65x512_S65x512 : S65x512.ShapeCasts S65x512
  inb_S4096x128_S512x128_0_0 : ∀ a, (![0, 0] : Fin 2 → Nat) a + S512x128.size a ≤ S4096x128.size a
  h_S512x128 : 0 < S512x128.numel
  shapeCasts_S512x128_S512x128 : S512x128.ShapeCasts S512x128
  broadcasts_S1x128_S2048x128 : S1x128.Broadcasts S2048x128
  inb_S65x4096_S65x512_0_512 : ∀ a, (![0, 512] : Fin 2 → Nat) a + S65x512.size a ≤ S65x4096.size a
  inb_S4096x128_S512x128_512_0 : ∀ a, (![512, 0] : Fin 2 → Nat) a + S512x128.size a ≤ S4096x128.size a
  inb_S65x4096_S65x512_0_1024 : ∀ a, (![0, 1024] : Fin 2 → Nat) a + S65x512.size a ≤ S65x4096.size a
  inb_S4096x128_S512x128_1024_0 : ∀ a, (![1024, 0] : Fin 2 → Nat) a + S512x128.size a ≤ S4096x128.size a
  inb_S65x4096_S65x512_0_1536 : ∀ a, (![0, 1536] : Fin 2 → Nat) a + S65x512.size a ≤ S65x4096.size a
  inb_S4096x128_S512x128_1536_0 : ∀ a, (![1536, 0] : Fin 2 → Nat) a + S512x128.size a ≤ S4096x128.size a
  inb_S65x4096_S65x512_0_2048 : ∀ a, (![0, 2048] : Fin 2 → Nat) a + S65x512.size a ≤ S65x4096.size a
  inb_S4096x128_S512x128_2048_0 : ∀ a, (![2048, 0] : Fin 2 → Nat) a + S512x128.size a ≤ S4096x128.size a
  inb_S65x4096_S65x512_0_2560 : ∀ a, (![0, 2560] : Fin 2 → Nat) a + S65x512.size a ≤ S65x4096.size a
  inb_S4096x128_S512x128_2560_0 : ∀ a, (![2560, 0] : Fin 2 → Nat) a + S512x128.size a ≤ S4096x128.size a
  inb_S65x4096_S65x512_0_3072 : ∀ a, (![0, 3072] : Fin 2 → Nat) a + S65x512.size a ≤ S65x4096.size a
  inb_S4096x128_S512x128_3072_0 : ∀ a, (![3072, 0] : Fin 2 → Nat) a + S512x128.size a ≤ S4096x128.size a
  inb_S65x4096_S65x512_0_3584 : ∀ a, (![0, 3584] : Fin 2 → Nat) a + S65x512.size a ≤ S65x4096.size a
  inb_S4096x128_S512x128_3584_0 : ∀ a, (![3584, 0] : Fin 2 → Nat) a + S512x128.size a ≤ S4096x128.size a
  inb_S4096x128_S2048x128_0_0 : ∀ a, (![0, 0] : Fin 2 → Nat) a + S2048x128.size a ≤ S4096x128.size a
  h_S2048x128 : 0 < S2048x128.numel
  inb_S8192x33_S4096x33_4096_0 : ∀ a, (![4096, 0] : Fin 2 → Nat) a + S4096x33.size a ≤ S8192x33.size a
  inb_S4096x128_S2048x128_2048_0 : ∀ a, (![2048, 0] : Fin 2 → Nat) a + S2048x128.size a ≤ S4096x128.size a
  dot_S4096x33_S33x512_S4096x512_1_0_0_1_n_n_wf : DotDims.WF S4096x33 S33x512 S4096x512 [1] [0] [0] [1] [] []
  dot_S4096x512_S512x32_S4096x32_1_0_0_1_n_n_wf : DotDims.WF S4096x512 S512x32 S4096x32 [1] [0] [0] [1] [] []
  dot_S2048x65_S65x512_S2048x512_1_0_0_1_n_n_wf : DotDims.WF S2048x65 S65x512 S2048x512 [1] [0] [0] [1] [] []
  dot_S2048x512_S512x128_S2048x128_1_0_0_1_n_n_wf : DotDims.WF S2048x512 S512x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x33.size a ≤ S32768x33.size a
  hwx0_0 : ∀ i : grid0.Coords, EltTy.bits .bf16 = 32 ∨ (Rect.block (s := S32768x33) S8192x33.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S33x4096.size a ≤ S33x4096.size a
  hwx0_1 : ∀ i : grid0.Coords, EltTy.bits .bf16 = 32 ∨ (Rect.block (s := S33x4096) S33x4096.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x32.size a ≤ S4096x32.size a
  hwx0_2 : ∀ i : grid0.Coords, EltTy.bits .bf16 = 32 ∨ (Rect.block (s := S4096x32) S4096x32.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x32.size a ≤ S1x32.size a
  hwx0_3 : ∀ i : grid0.Coords, EltTy.bits .f32 = 32 ∨ (Rect.block (s := S1x32) S1x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S65x4096.size a ≤ S65x4096.size a
  hwx0_4 : ∀ i : grid0.Coords, EltTy.bits .bf16 = 32 ∨ (Rect.block (s := S65x4096) S65x4096.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4096x128.size a ≤ S4096x128.size a
  hwx0_5 : ∀ i : grid0.Coords, EltTy.bits .bf16 = 32 ∨ (Rect.block (s := S4096x128) S4096x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4096x128.size a ≤ S16384x128.size a
  hwx0_7 : ∀ i : grid0.Coords, EltTy.bits .f32 = 32 ∨ (Rect.block (s := S16384x128) S4096x128.size (cc0_transform_7 i) (hinb0_7 i)).WholeWords (EltTy.packing .f32)

variable [Facts₀]

def dot_S4096x33_S33x512_S4096x512_1_0_0_1_n_n : DotDims S4096x33 S33x512 S4096x512 where
  lhsContracting := [1]
  rhsContracting := [0]
  lhsNonContracting := [0]
  rhsNonContracting := [1]
  lhsBatch := []
  rhsBatch := []
  wf := dot_S4096x33_S33x512_S4096x512_1_0_0_1_n_n_wf
def dot_S4096x512_S512x32_S4096x32_1_0_0_1_n_n : DotDims S4096x512 S512x32 S4096x32 where
  lhsContracting := [1]
  rhsContracting := [0]
  lhsNonContracting := [0]
  rhsNonContracting := [1]
  lhsBatch := []
  rhsBatch := []
  wf := dot_S4096x512_S512x32_S4096x32_1_0_0_1_n_n_wf
def dot_S2048x65_S65x512_S2048x512_1_0_0_1_n_n : DotDims S2048x65 S65x512 S2048x512 where
  lhsContracting := [1]
  rhsContracting := [0]
  lhsNonContracting := [0]
  rhsNonContracting := [1]
  lhsBatch := []
  rhsBatch := []
  wf := dot_S2048x65_S65x512_S2048x512_1_0_0_1_n_n_wf
def dot_S2048x512_S512x128_S2048x128_1_0_0_1_n_n : DotDims S2048x512 S512x128 S2048x128 where
  lhsContracting := [1]
  rhsContracting := [0]
  lhsNonContracting := [0]
  rhsNonContracting := [1]
  lhsBatch := []
  rhsBatch := []
  wf := dot_S2048x512_S512x128_S2048x128_1_0_0_1_n_n_wf

abbrev win0_0 : Pipeline.Window sig grid0 :=
  Pipeline.Window.ofSpec (Memref.whole main_v8) S8192x33.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S33x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S4096x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S1x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S65x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S4096x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v18) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v19) S4096x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S16384x32 : Shape := ⟨2, ![16384, 32]⟩
abbrev S32x4096 : Shape := ⟨2, ![32, 4096]⟩
abbrev S4096 : Shape := ⟨1, ![4096]⟩
abbrev S4096x32 : Shape := ⟨2, ![4096, 32]⟩
abbrev S32 : Shape := ⟨1, ![32]⟩
abbrev S64x4096 : Shape := ⟨2, ![64, 4096]⟩
abbrev S4096x128 : Shape := ⟨2, ![4096, 128]⟩
abbrev S128 : Shape := ⟨1, ![128]⟩
abbrev S16384x4096 : Shape := ⟨2, ![16384, 4096]⟩
abbrev S1x4096 : Shape := ⟨2, ![1, 4096]⟩
abbrev S_ : Shape := ⟨0, ![]⟩
abbrev S1x32 : Shape := ⟨2, ![1, 32]⟩
abbrev S16384x64 : Shape := ⟨2, ![16384, 64]⟩
abbrev S16384x128 : Shape := ⟨2, ![16384, 128]⟩
abbrev S1x128 : Shape := ⟨2, ![1, 128]⟩

abbrev nBuf : Space → Nat
  | .hbm => 50
  | .vmem => 0
  | .smem => 0
  | _ => 0

abbrev bufTy : (tb : Table) → Fin (tcTables nBuf tb) → BufTy
  | .hbm, ⟨0, _⟩ => ⟨S16384x32, .f32⟩
  | .hbm, ⟨1, _⟩ => ⟨S16384x32, .f32⟩
  | .hbm, ⟨2, _⟩ => ⟨S32x4096, .f32⟩
  | .hbm, ⟨3, _⟩ => ⟨S4096, .f32⟩
  | .hbm, ⟨4, _⟩ => ⟨S4096x32, .f32⟩
  | .hbm, ⟨5, _⟩ => ⟨S32, .f32⟩
  | .hbm, ⟨6, _⟩ => ⟨S64x4096, .f32⟩
  | .hbm, ⟨7, _⟩ => ⟨S4096, .f32⟩
  | .hbm, ⟨8, _⟩ => ⟨S4096x128, .f32⟩
  | .hbm, ⟨9, _⟩ => ⟨S128, .f32⟩
  | .hbm, ⟨10, _⟩ => ⟨S16384x4096, .f32⟩
  | .hbm, ⟨11, _⟩ => ⟨S1x4096, .f32⟩
  | .hbm, ⟨12, _⟩ => ⟨S16384x4096, .f32⟩
  | .hbm, ⟨13, _⟩ => ⟨S16384x4096, .f32⟩
  | .hbm, ⟨14, _⟩ => ⟨S_, .f32⟩
  | .hbm, ⟨15, _⟩ => ⟨S16384x4096, .f32⟩
  | .hbm, ⟨16, _⟩ => ⟨S16384x4096, .f32⟩
  | .hbm, ⟨17, _⟩ => ⟨S16384x32, .f32⟩
  | .hbm, ⟨18, _⟩ => ⟨S1x32, .f32⟩
  | .hbm, ⟨19, _⟩ => ⟨S16384x32, .f32⟩
  | .hbm, ⟨20, _⟩ => ⟨S16384x32, .f32⟩
  | .hbm, ⟨21, _⟩ => ⟨S_, .f32⟩
  | .hbm, ⟨22, _⟩ => ⟨S16384x32, .f32⟩
  | .hbm, ⟨23, _⟩ => ⟨S16384x32, .f32⟩
  | .hbm, ⟨24, _⟩ => ⟨S16384x4096, .f32⟩
  | .hbm, ⟨25, _⟩ => ⟨S1x4096, .f32⟩
  | .hbm, ⟨26, _⟩ => ⟨S16384x4096, .f32⟩
  | .hbm, ⟨27, _⟩ => ⟨S16384x4096, .f32⟩
  | .hbm, ⟨28, _⟩ => ⟨S_, .f32⟩
  | .hbm, ⟨29, _⟩ => ⟨S16384x4096, .f32⟩
  | .hbm, ⟨30, _⟩ => ⟨S16384x4096, .f32⟩
  | .hbm, ⟨31, _⟩ => ⟨S16384x32, .f32⟩
  | .hbm, ⟨32, _⟩ => ⟨S1x32, .f32⟩
  | .hbm, ⟨33, _⟩ => ⟨S16384x32, .f32⟩
  | .hbm, ⟨34, _⟩ => ⟨S16384x32, .f32⟩
  | .hbm, ⟨35, _⟩ => ⟨S_, .f32⟩
  | .hbm, ⟨36, _⟩ => ⟨S16384x32, .f32⟩
  | .hbm, ⟨37, _⟩ => ⟨S16384x32, .f32⟩
  | .hbm, ⟨38, _⟩ => ⟨S16384x64, .f32⟩
  | .hbm, ⟨39, _⟩ => ⟨S16384x4096, .f32⟩
  | .hbm, ⟨40, _⟩ => ⟨S1x4096, .f32⟩
  | .hbm, ⟨41, _⟩ => ⟨S16384x4096, .f32⟩
  | .hbm, ⟨42, _⟩ => ⟨S16384x4096, .f32⟩
  | .hbm, ⟨43, _⟩ => ⟨S_, .f32⟩
  | .hbm, ⟨44, _⟩ => ⟨S16384x4096, .f32⟩
  | .hbm, ⟨45, _⟩ => ⟨S16384x4096, .f32⟩
  | .hbm, ⟨46, _⟩ => ⟨S16384x128, .f32⟩
  | .hbm, ⟨47, _⟩ => ⟨S1x128, .f32⟩
  | .hbm, ⟨48, _⟩ => ⟨S16384x128, .f32⟩
  | .hbm, ⟨49, _⟩ => ⟨S16384x128, .f32⟩
  | _, _ => ⟨S16384x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_call0_cst : Ref sig .tc := ⟨.hbm, 14, rfl⟩
abbrev main_call0_v0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_call1_cst : Ref sig .tc := ⟨.hbm, 21, rfl⟩
abbrev main_call1_v0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_call2_cst : Ref sig .tc := ⟨.hbm, 28, rfl⟩
abbrev main_call2_v0 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_call3_cst : Ref sig .tc := ⟨.hbm, 35, rfl⟩
abbrev main_call3_v0 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_call4_cst : Ref sig .tc := ⟨.hbm, 43, rfl⟩
abbrev main_call4_v0 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S16384x4096_0_1 : S1x4096.BroadcastsInDim S16384x4096 (![0, 1] : Fin 2 → Fin S16384x4096.rank)
  bcast_S_S16384x4096 : S_.BroadcastsInDim S16384x4096 (![] : Fin 0 → Fin S16384x4096.rank)
  bcast_S32_S1x32_1 : S32.BroadcastsInDim S1x32 (![1] : Fin 1 → Fin S1x32.rank)
  bcast_S1x32_S16384x32_0_1 : S1x32.BroadcastsInDim S16384x32 (![0, 1] : Fin 2 → Fin S16384x32.rank)
  bcast_S_S16384x32 : S_.BroadcastsInDim S16384x32 (![] : Fin 0 → Fin S16384x32.rank)
  concatenates_S16384x32_S16384x32_S16384x64_d1 : Shape.Concatenates [S16384x32, S16384x32] S16384x64 1
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  dot_S16384x32_S32x4096_S16384x4096_1_0_0_1_n_n_wf : DotDims.WF S16384x32 S32x4096 S16384x4096 [1] [0] [0] [1] [] []
  dot_S16384x4096_S4096x32_S16384x32_1_0_0_1_n_n_wf : DotDims.WF S16384x4096 S4096x32 S16384x32 [1] [0] [0] [1] [] []
  dot_S16384x64_S64x4096_S16384x4096_1_0_0_1_n_n_wf : DotDims.WF S16384x64 S64x4096 S16384x4096 [1] [0] [0] [1] [] []
  dot_S16384x4096_S4096x128_S16384x128_1_0_0_1_n_n_wf : DotDims.WF S16384x4096 S4096x128 S16384x128 [1] [0] [0] [1] [] []

variable [Facts₀]

def dot_S16384x32_S32x4096_S16384x4096_1_0_0_1_n_n : DotDims S16384x32 S32x4096 S16384x4096 where
  lhsContracting := [1]
  rhsContracting := [0]
  lhsNonContracting := [0]
  rhsNonContracting := [1]
  lhsBatch := []
  rhsBatch := []
  wf := dot_S16384x32_S32x4096_S16384x4096_1_0_0_1_n_n_wf
def dot_S16384x4096_S4096x32_S16384x32_1_0_0_1_n_n : DotDims S16384x4096 S4096x32 S16384x32 where
  lhsContracting := [1]
  rhsContracting := [0]
  lhsNonContracting := [0]
  rhsNonContracting := [1]
  lhsBatch := []
  rhsBatch := []
  wf := dot_S16384x4096_S4096x32_S16384x32_1_0_0_1_n_n_wf
def dot_S16384x64_S64x4096_S16384x4096_1_0_0_1_n_n : DotDims S16384x64 S64x4096 S16384x4096 where
  lhsContracting := [1]
  rhsContracting := [0]
  lhsNonContracting := [0]
  rhsNonContracting := [1]
  lhsBatch := []
  rhsBatch := []
  wf := dot_S16384x64_S64x4096_S16384x4096_1_0_0_1_n_n_wf
def dot_S16384x4096_S4096x128_S16384x128_1_0_0_1_n_n : DotDims S16384x4096 S4096x128 S16384x128 where
  lhsContracting := [1]
  rhsContracting := [0]
  lhsNonContracting := [0]
  rhsNonContracting := [1]
  lhsBatch := []
  rhsBatch := []
  wf := dot_S16384x4096_S4096x128_S16384x128_1_0_0_1_n_n_wf

class Facts : Prop extends Facts₀ where

variable [Facts]
-- ==== Proof.Body.lean ====
/-
  The kernel body as ONE function of a row stream.

  At each grid point the body handles two independent row streams. A stream takes 4096 rows of the stacked
  input block — 2048 rows of the first branch followed by the 2048 matching rows of the second, each row
  carrying a trailing one — and produces 2048 rows of output:

    * layers 1 and 2, both branches at once: for each of the eight 512-wide slabs of the hidden axis,
      `relu (X · W1aug[:, slab]) · W2[slab, :]`, added slab by slab to an accumulator that starts at `b2`;
    * the re-pairing: `relu` of that accumulator, its top half (first branch) and bottom half (second
      branch) set side by side with a column of ones;
    * layers 3 and 4 the same way: `relu (U · W3aug[:, slab]) · W4[slab, :]` added to an accumulator that
      starts at `b4`.

  The printed body is this function applied to rows 0..4095 and to rows 4096..8191 of the block, stored
  to rows 0..2047 and 2048..4095 of the output block.
-/
import proofs.«152644_g11802570129985_cont_fleet_79_15_alg».proof.Proof.Gen.KernelIdeal.Frame

noncomputable section

namespace Cert.KernelIdeal.Stream

open Cert.KernelIdeal Cert.KernelIdeal.Gen Idealize.ShloMosaic Idealize.ShloMosaic.TcCoe

variable {F : FTy → Type} [FloatOps F]

/-- One slab of the first hidden layer, after its ReLU: `relu (X · w1)`. -/
def hidden1 (X : FVec F S4096x33 .bf16) (w1 : Vec F S33x512 .bf16) : FVec F S4096x512 .bf16 :=
  maximumf (truncf .bf16 (matmul dot_S4096x33_S33x512_S4096x512_1_0_0_1_n_n none X
    (shapeCast S33x512 w1 shapeCasts_S33x512_S33x512) (constant S4096x512 .f32 0x00000000#32)) bitsLt_bf16_f32)
    (broadcast S4096x512 (Scalar.ofBits .bf16 0x0000#16))

/-- That slab's contribution to the second layer: `relu (X · w1) · w2`. -/
def slab12 (X : FVec F S4096x33 .bf16) (w1 : Vec F S33x512 .bf16) (w2 : Vec F S512x32 .bf16) : FVec F S4096x32 .f32 :=
  matmul dot_S4096x512_S512x32_S4096x32_1_0_0_1_n_n none (hidden1 X w1)
    (shapeCast S512x32 w2 shapeCasts_S512x32_S512x32) (constant S4096x32 .f32 0x00000000#32)

/-- The second layer before its ReLU: the bias row broadcast down the rows, then the eight slabs. -/
def acc2 (X : FVec F S4096x33 .bf16) (x1 : Vec F S33x4096 .bf16) (x2 : Vec F S4096x32 .bf16) (x3 : Vec F S1x32 .f32) :
    FVec F S4096x32 .f32 :=
  addf (addf (addf (addf (addf (addf (addf (addf
    (broadcastTo S4096x32 (shapeCast S1x32 (View.ld x3 r0_1) shapeCasts_S1x32_S1x32) broadcasts_S1x32_S4096x32)
    (slab12 X (View.ld x1 r0_2) (View.ld x2 r0_3)))
    (slab12 X (View.ld x1 r0_4) (View.ld x2 r0_5)))
    (slab12 X (View.ld x1 r0_6) (View.ld x2 r0_7)))
    (slab12 X (View.ld x1 r0_8) (View.ld x2 r0_9)))
    (slab12 X (View.ld x1 r0_10) (View.ld x2 r0_11)))
    (slab12 X (View.ld x1 r0_12) (View.ld x2 r0_13)))
    (slab12 X (View.ld x1 r0_14) (View.ld x2 r0_15)))
    (slab12 X (View.ld x1 r0_16) (View.ld x2 r0_17))

/-- The re-pairing: ReLU, then the two branches' rows side by side with a column of ones. -/
def paired (A : FVec F S4096x32 .f32) : FVec F S2048x65 .bf16 :=
  truncf .bf16 (concatenate S2048x65 1
    [⟨S2048x32, extractStridedSlice S2048x32 ![0, 0] (maximumf A (broadcast S4096x32 (Scalar.ofBits .f32 0x00000000#32))) slices_S4096x32_o0_0_S2048x32⟩,
     ⟨S2048x32, extractStridedSlice S2048x32 ![2048, 0] (maximumf A (broadcast S4096x32 (Scalar.ofBits .f32 0x00000000#32))) slices_S4096x32_o2048_0_S2048x32⟩,
     ⟨S2048x1, broadcast S2048x1 (Scalar.ofBits .f32 0x3F800000#32)⟩]
    concatenates_S2048x32_S2048x32_S2048x1_S2048x65_d1) bitsLt_bf16_f32

/-- One slab of the third layer, after its ReLU: `relu (U · w3)`. -/
def hidden3 (U : FVec F S2048x65 .bf16) (w3 : Vec F S65x512 .bf16) : FVec F S2048x512 .bf16 :=
  maximumf (truncf .bf16 (matmul dot_S2048x65_S65x512_S2048x512_1_0_0_1_n_n none U
    (shapeCast S65x512 w3 shapeCasts_S65x512_S65x512) (constant S2048x512 .f32 0x00000000#32)) bitsLt_bf16_f32)
    (broadcast S2048x512 (Scalar.ofBits .bf16 0x0000#16))

/-- That slab's contribution to the last layer: `relu (U · w3) · w4`. -/
def slab34 (U : FVec F S2048x65 .bf16) (w3 : Vec F S65x512 .bf16) (w4 : Vec F S512x128 .bf16) : FVec F S2048x128 .f32 :=
  matmul dot_S2048x512_S512x128_S2048x128_1_0_0_1_n_n none (hidden3 U w3)
    (shapeCast S512x128 w4 shapeCasts_S512x128_S512x128) (constant S2048x128 .f32 0x00000000#32)

/-- The last layer: the bias row broadcast down the rows, then the eight slabs. -/
def acc4 (U : FVec F S2048x65 .bf16) (x4 : Vec F S65x4096 .bf16) (x5 : Vec F S4096x128 .bf16) (x6 : Vec F S1x128 .f32) :
    FVec F S2048x128 .f32 :=
  addf (addf (addf (addf (addf (addf (addf (addf
    (broadcastTo S2048x128 (shapeCast S1x128 (View.ld x6 r0_18) shapeCasts_S1x128_S1x128) broadcasts_S1x128_S2048x128)
    (slab34 U (View.ld x4 r0_19) (View.ld x5 r0_20)))
    (slab34 U (View.ld x4 r0_21) (View.ld x5 r0_22)))
    (slab34 U (View.ld x4 r0_23) (View.ld x5 r0_24)))
    (slab34 U (View.ld x4 r0_25) (View.ld x5 r0_26)))
    (slab34 U (View.ld x4 r0_27) (View.ld x5 r0_28)))
    (slab34 U (View.ld x4 r0_29) (View.ld x5 r0_30)))
    (slab34 U (View.ld x4 r0_31) (View.ld x5 r0_32)))
    (slab34 U (View.ld x4 r0_33) (View.ld x5 r0_34))

/-- A whole stream: 4096 stacked input rows to 2048 output rows. -/
def stream (Xl : Vec F S4096x33 .bf16) (x1 : Vec F S33x4096 .bf16) (x2 : Vec F S4096x32 .bf16) (x3 : Vec F S1x32 .f32)
    (x4 : Vec F S65x4096 .bf16) (x5 : Vec F S4096x128 .bf16) (x6 : Vec F S1x128 .f32) : FVec F S2048x128 .f32 :=
  acc4 (paired (acc2 (shapeCast S4096x33 Xl shapeCasts_S4096x33_S4096x33) x1 x2 x3)) x4 x5 x6

/-- What the body leaves in the output block: the second stream's rows over the first stream's. -/
theorem out0_7_eq (x0 : Vec F S8192x33 .bf16) (x1 : Vec F S33x4096 .bf16) (x2 : Vec F S4096x32 .bf16) (x3 : Vec F S1x32 .f32)
    (x4 : Vec F S65x4096 .bf16) (x5 : Vec F S4096x128 .bf16) (x6 : Vec F S1x128 .f32) :
    out0_7 x0 x1 x2 x3 x4 x5 x6 = View.canon
      [⟨r0_37, stream (View.ld x0 r0_36) x1 x2 x3 x4 x5 x6⟩, ⟨r0_35, stream (View.ld x0 r0_0) x1 x2 x3 x4 x5 x6⟩] := rfl

end Cert.KernelIdeal.Stream

end
-- ==== Proof.SumLaws.lean ====
/-
  Sums over the extended reals that the two programs group differently.

  The reference computes each layer as one sum over the whole hidden axis and adds the bias afterwards.
  The kernel (i) folds a bias into its matrix product through a column of ones appended to the left
  operand and a row holding the bias appended to the right one, and (ii) walks the 4096-wide hidden axis in
  eight slabs of 512, adding each slab's partial product to an accumulator that STARTS at the next
  layer's bias. Both regroupings use only that addition of extended reals is commutative and
  associative and that `1 * b = b`; neither distributes a product over a sum, so no finiteness of the
  entries is needed.
-/
import Mathlib.Algebra.BigOperators.Fin
import Mathlib.Data.EReal.Basic

namespace SiameseSums

open Finset

/-- A product against an operand whose LAST entry is one: the last term is the other operand's last
    entry alone. (The appended ones column meeting the appended bias row.) -/
theorem dot_ones_last {n : ℕ} (xa wa : Fin (n + 1) → EReal) (hx : xa (Fin.last n) = 1) :
    ∑ k, xa k * wa k = ∑ k : Fin n, xa k.castSucc * wa k.castSucc + wa (Fin.last n) := by
  rw [Fin.sum_univ_castSucc, hx, one_mul]

/-- A sum over `a + b` indices is the sum over the first `a` plus the sum over the last `b`, the
    indices written by their values. -/
theorem sum_split {M : Type*} [AddCommMonoid M] (a b : ℕ) (f : Fin (a + b) → M) :
    ∑ i, f i = ∑ i : Fin a, f ⟨i.val, by omega⟩ + ∑ j : Fin b, f ⟨a + j.val, by omega⟩ :=
  Fin.sum_univ_add f

/-- Slab `o .. o + 512` of the hidden axis, by position inside the slab. -/
def slab (o : ℕ) (h : o + 512 ≤ 4096) (j : Fin 512) : Fin 4096 := ⟨o + j.val, by omega⟩

/-- The hidden axis walked in eight slabs of 512, each partial sum added to an accumulator that starts
    at `b`, is the whole sum with `b` added last. -/
theorem eight_slabs (f : Fin 4096 → EReal) (b : EReal) :
    ((((((((b + ∑ j, f (slab 0 (by norm_num) j)) + ∑ j, f (slab 512 (by norm_num) j))
      + ∑ j, f (slab 1024 (by norm_num) j)) + ∑ j, f (slab 1536 (by norm_num) j))
      + ∑ j, f (slab 2048 (by norm_num) j)) + ∑ j, f (slab 2560 (by norm_num) j))
      + ∑ j, f (slab 3072 (by norm_num) j)) + ∑ j, f (slab 3584 (by norm_num) j))
    = ∑ j, f j + b := by
  have e7 := sum_split 3584 512 f
  have e6 := sum_split 3072 512 (fun i : Fin (3072 + 512) => f ⟨i.val, by omega⟩)
  have e5 := sum_split 2560 512 (fun i : Fin (2560 + 512) => f ⟨i.val, by omega⟩)
  have e4 := sum_split 2048 512 (fun i : Fin (2048 + 512) => f ⟨i.val, by omega⟩)
  have e3 := sum_split 1536 512 (fun i : Fin (1536 + 512) => f ⟨i.val, by omega⟩)
  have e2 := sum_split 1024 512 (fun i : Fin (1024 + 512) => f ⟨i.val, by omega⟩)
  have e1 := sum_split 512 512 (fun i : Fin (512 + 512) => f ⟨i.val, by omega⟩)
  have e0 : ∑ j : Fin 512, f (slab 0 (by norm_num) j) = ∑ i : Fin 512, f ⟨i.val, by omega⟩ :=
    Finset.sum_congr rfl fun j _ => congrArg f (Fin.ext (by simp [slab]))
  simp only [slab] at *
  rw [e7, e6, e5, e4, e3, e2, e1, e0]
  abel

end SiameseSums
-- ==== Proof.BodyAt.lean ====
/-
  The stages of a row stream read at an index, at the ideal values.

  A block product into a zero accumulator is the plain sum over the contraction index of the operands'
  products; a narrowing is the identity; `max · 0` is the ReLU. So one slab of layers 1–2 at row `r`,
  column `q` is `∑ j < 512, max (∑ k < 33, X[r,k] · w1[k,j]) 0 · w2[j,q]`, and likewise for layers 3–4
  with 65 in place of 33.
-/
import proofs.«152644_g11802570129985_cont_fleet_79_15_alg».proof.Proof.Body
import proofs.«152644_g11802570129985_cont_fleet_79_15_alg».proof.Proof.SumLaws
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

noncomputable section

namespace Cert.KernelIdeal.Stream

open Cert.KernelIdeal Cert.KernelIdeal.Gen Idealize.ShloMosaic Idealize.ShloMosaic.TcCoe Idealize.ShloMosaic.ValueIdx

/-! ## The first layer's block product: [4096, 33] by [33, 512] -/

theorem p1_lhs_0 (i : S4096x512.Idx) (q : dot_S4096x33_S33x512_S4096x512_1_0_0_1_n_n.contr.Idx) :
    (dot_S4096x33_S33x512_S4096x512_1_0_0_1_n_n.lhsIdx i q 0).val = (i 0).val := by
  unfold DotDims.lhsIdx
  rw [dif_neg (show ¬(0 : Fin S4096x33.rank) ∈ dot_S4096x33_S33x512_S4096x512_1_0_0_1_n_n.lhsBatch by decide), dif_pos (show (0 : Fin S4096x33.rank) ∈ dot_S4096x33_S33x512_S4096x512_1_0_0_1_n_n.lhsNonContracting by decide)]
  rfl
theorem p1_lhs_1 (i : S4096x512.Idx) (q : dot_S4096x33_S33x512_S4096x512_1_0_0_1_n_n.contr.Idx) :
    (dot_S4096x33_S33x512_S4096x512_1_0_0_1_n_n.lhsIdx i q 1).val = (q ⟨0, by decide⟩).val :=
  dot_S4096x33_S33x512_S4096x512_1_0_0_1_n_n.lhsIdx_val_of_single rfl i q
theorem p1_rhs_0 (i : S4096x512.Idx) (q : dot_S4096x33_S33x512_S4096x512_1_0_0_1_n_n.contr.Idx) :
    (dot_S4096x33_S33x512_S4096x512_1_0_0_1_n_n.rhsIdx i q 0).val = (q ⟨0, by decide⟩).val :=
  dot_S4096x33_S33x512_S4096x512_1_0_0_1_n_n.rhsIdx_val_of_single rfl i q
theorem p1_rhs_1 (i : S4096x512.Idx) (q : dot_S4096x33_S33x512_S4096x512_1_0_0_1_n_n.contr.Idx) :
    (dot_S4096x33_S33x512_S4096x512_1_0_0_1_n_n.rhsIdx i q 1).val = (i 1).val := by
  unfold DotDims.rhsIdx
  rw [dif_neg (show ¬(1 : Fin S33x512.rank) ∈ dot_S4096x33_S33x512_S4096x512_1_0_0_1_n_n.rhsBatch by decide), dif_pos (show (1 : Fin S33x512.rank) ∈ dot_S4096x33_S33x512_S4096x512_1_0_0_1_n_n.rhsNonContracting by decide)]
  rfl

/-- Row `r` of `X` against column `j` of `W`. -/
theorem prod1_apply (X : FVec Ideal S4096x33 .bf16) (W : FVec Ideal S33x512 .bf16) (r : Fin 4096) (j : Fin 512) :
    matmul dot_S4096x33_S33x512_S4096x512_1_0_0_1_n_n none X W (constant (F := Ideal) S4096x512 .f32 0x00000000#32) (ix2 r j)
      = ∑ k : Fin 33, X (ix2 r k) * W (ix2 k j) := by
  simp only [matmul]
  rw [Ideal.matmul_constant_zero_apply, ← Equiv.sum_comp (contrEquiv1 dot_S4096x33_S33x512_S4096x512_1_0_0_1_n_n 33 rfl rfl).symm]
  refine Finset.sum_congr rfl fun k _ => ?_
  have hk := contrEquiv1_symm_val dot_S4096x33_S33x512_S4096x512_1_0_0_1_n_n 33 rfl rfl k
  have el : dot_S4096x33_S33x512_S4096x512_1_0_0_1_n_n.lhsIdx (ix2 r j) ((contrEquiv1 dot_S4096x33_S33x512_S4096x512_1_0_0_1_n_n 33 rfl rfl).symm k) = ix2 r k := funext fun a => Fin.ext (by
    match a with
    | ⟨0, _⟩ => exact p1_lhs_0 _ _
    | ⟨1, _⟩ => exact (p1_lhs_1 _ _).trans hk)
  have er : dot_S4096x33_S33x512_S4096x512_1_0_0_1_n_n.rhsIdx (ix2 r j) ((contrEquiv1 dot_S4096x33_S33x512_S4096x512_1_0_0_1_n_n 33 rfl rfl).symm k) = ix2 k j := funext fun a => Fin.ext (by
    match a with
    | ⟨0, _⟩ => exact (p1_rhs_0 _ _).trans hk
    | ⟨1, _⟩ => exact p1_rhs_1 _ _)
  rw [el, er]

/-- The bf16 zero the ReLU compares with is the extended real zero. -/
theorem relu_zero_bf16 : (Scalar.ofBits (F := Ideal) .bf16 0x0000#16) = (0 : EReal) := Ideal.ofBits_zero_bf16

/-- One slab of the first hidden layer at an index. -/
theorem hidden1_apply (X : FVec Ideal S4096x33 .bf16) (w1 : Vec Ideal S33x512 .bf16) (r : Fin 4096) (j : Fin 512) :
    hidden1 X w1 (ix2 r j) = max (∑ k : Fin 33, X (ix2 r k) * w1 (ix2 k j)) 0 := by
  unfold hidden1
  rw [maximumf_apply, truncf_apply, shapeCast_self, prod1_apply, broadcast_apply, relu_zero_bf16]

/-! ## The second layer's block product: [4096, 512] by [512, 32] -/

theorem p2_lhs_0 (i : S4096x32.Idx) (q : dot_S4096x512_S512x32_S4096x32_1_0_0_1_n_n.contr.Idx) :
    (dot_S4096x512_S512x32_S4096x32_1_0_0_1_n_n.lhsIdx i q 0).val = (i 0).val := by
  unfold DotDims.lhsIdx
  rw [dif_neg (show ¬(0 : Fin S4096x512.rank) ∈ dot_S4096x512_S512x32_S4096x32_1_0_0_1_n_n.lhsBatch by decide), dif_pos (show (0 : Fin S4096x512.rank) ∈ dot_S4096x512_S512x32_S4096x32_1_0_0_1_n_n.lhsNonContracting by decide)]
  rfl
theorem p2_lhs_1 (i : S4096x32.Idx) (q : dot_S4096x512_S512x32_S4096x32_1_0_0_1_n_n.contr.Idx) :
    (dot_S4096x512_S512x32_S4096x32_1_0_0_1_n_n.lhsIdx i q 1).val = (q ⟨0, by decide⟩).val :=
  dot_S4096x512_S512x32_S4096x32_1_0_0_1_n_n.lhsIdx_val_of_single rfl i q
theorem p2_rhs_0 (i : S4096x32.Idx) (q : dot_S4096x512_S512x32_S4096x32_1_0_0_1_n_n.contr.Idx) :
    (dot_S4096x512_S512x32_S4096x32_1_0_0_1_n_n.rhsIdx i q 0).val = (q ⟨0, by decide⟩).val :=
  dot_S4096x512_S512x32_S4096x32_1_0_0_1_n_n.rhsIdx_val_of_single rfl i q
theorem p2_rhs_1 (i : S4096x32.Idx) (q : dot_S4096x512_S512x32_S4096x32_1_0_0_1_n_n.contr.Idx) :
    (dot_S4096x512_S512x32_S4096x32_1_0_0_1_n_n.rhsIdx i q 1).val = (i 1).val := by
  unfold DotDims.rhsIdx
  rw [dif_neg (show ¬(1 : Fin S512x32.rank) ∈ dot_S4096x512_S512x32_S4096x32_1_0_0_1_n_n.rhsBatch by decide), dif_pos (show (1 : Fin S512x32.rank) ∈ dot_S4096x512_S512x32_S4096x32_1_0_0_1_n_n.rhsNonContracting by decide)]
  rfl

/-- Row `r` of `H` against column `q` of `W`. -/
theorem prod2_apply (H : FVec Ideal S4096x512 .bf16) (W : FVec Ideal S512x32 .bf16) (r : Fin 4096) (q : Fin 32) :
    matmul dot_S4096x512_S512x32_S4096x32_1_0_0_1_n_n none H W (constant (F := Ideal) S4096x32 .f32 0x00000000#32) (ix2 r q)
      = ∑ j : Fin 512, H (ix2 r j) * W (ix2 j q) := by
  simp only [matmul]
  rw [Ideal.matmul_constant_zero_apply, ← Equiv.sum_comp (contrEquiv1 dot_S4096x512_S512x32_S4096x32_1_0_0_1_n_n 512 rfl rfl).symm]
  refine Finset.sum_congr rfl fun k _ => ?_
  have hk := contrEquiv1_symm_val dot_S4096x512_S512x32_S4096x32_1_0_0_1_n_n 512 rfl rfl k
  have el : dot_S4096x512_S512x32_S4096x32_1_0_0_1_n_n.lhsIdx (ix2 r q) ((contrEquiv1 dot_S4096x512_S512x32_S4096x32_1_0_0_1_n_n 512 rfl rfl).symm k) = ix2 r k := funext fun a => Fin.ext (by
    match a with
    | ⟨0, _⟩ => exact p2_lhs_0 _ _
    | ⟨1, _⟩ => exact (p2_lhs_1 _ _).trans hk)
  have er : dot_S4096x512_S512x32_S4096x32_1_0_0_1_n_n.rhsIdx (ix2 r q) ((contrEquiv1 dot_S4096x512_S512x32_S4096x32_1_0_0_1_n_n 512 rfl rfl).symm k) = ix2 k q := funext fun a => Fin.ext (by
    match a with
    | ⟨0, _⟩ => exact (p2_rhs_0 _ _).trans hk
    | ⟨1, _⟩ => exact p2_rhs_1 _ _)
  rw [el, er]

/-- One slab's contribution to the second layer at an index. -/
theorem slab12_apply (X : FVec Ideal S4096x33 .bf16) (w1 : Vec Ideal S33x512 .bf16) (w2 : Vec Ideal S512x32 .bf16)
    (r : Fin 4096) (q : Fin 32) :
    slab12 X w1 w2 (ix2 r q) = ∑ j : Fin 512, max (∑ k : Fin 33, X (ix2 r k) * w1 (ix2 k j)) 0 * w2 (ix2 j q) := by
  unfold slab12
  rw [prod2_apply]
  refine Finset.sum_congr rfl fun j _ => ?_
  rw [hidden1_apply, shapeCast_self]

/-! ## The third layer's block product: [2048, 65] by [65, 512] -/

theorem p3_lhs_0 (i : S2048x512.Idx) (q : dot_S2048x65_S65x512_S2048x512_1_0_0_1_n_n.contr.Idx) :
    (dot_S2048x65_S65x512_S2048x512_1_0_0_1_n_n.lhsIdx i q 0).val = (i 0).val := by
  unfold DotDims.lhsIdx
  rw [dif_neg (show ¬(0 : Fin S2048x65.rank) ∈ dot_S2048x65_S65x512_S2048x512_1_0_0_1_n_n.lhsBatch by decide), dif_pos (show (0 : Fin S2048x65.rank) ∈ dot_S2048x65_S65x512_S2048x512_1_0_0_1_n_n.lhsNonContracting by decide)]
  rfl
theorem p3_lhs_1 (i : S2048x512.Idx) (q : dot_S2048x65_S65x512_S2048x512_1_0_0_1_n_n.contr.Idx) :
    (dot_S2048x65_S65x512_S2048x512_1_0_0_1_n_n.lhsIdx i q 1).val = (q ⟨0, by decide⟩).val :=
  dot_S2048x65_S65x512_S2048x512_1_0_0_1_n_n.lhsIdx_val_of_single rfl i q
theorem p3_rhs_0 (i : S2048x512.Idx) (q : dot_S2048x65_S65x512_S2048x512_1_0_0_1_n_n.contr.Idx) :
    (dot_S2048x65_S65x512_S2048x512_1_0_0_1_n_n.rhsIdx i q 0).val = (q ⟨0, by decide⟩).val :=
  dot_S2048x65_S65x512_S2048x512_1_0_0_1_n_n.rhsIdx_val_of_single rfl i q
theorem p3_rhs_1 (i : S2048x512.Idx) (q : dot_S2048x65_S65x512_S2048x512_1_0_0_1_n_n.contr.Idx) :
    (dot_S2048x65_S65x512_S2048x512_1_0_0_1_n_n.rhsIdx i q 1).val = (i 1).val := by
  unfold DotDims.rhsIdx
  rw [dif_neg (show ¬(1 : Fin S65x512.rank) ∈ dot_S2048x65_S65x512_S2048x512_1_0_0_1_n_n.rhsBatch by decide), dif_pos (show (1 : Fin S65x512.rank) ∈ dot_S2048x65_S65x512_S2048x512_1_0_0_1_n_n.rhsNonContracting by decide)]
  rfl

/-- Row `p` of `U` against column `j` of `W`. -/
theorem prod3_apply (U : FVec Ideal S2048x65 .bf16) (W : FVec Ideal S65x512 .bf16) (p : Fin 2048) (j : Fin 512) :
    matmul dot_S2048x65_S65x512_S2048x512_1_0_0_1_n_n none U W (constant (F := Ideal) S2048x512 .f32 0x00000000#32) (ix2 p j)
      = ∑ k : Fin 65, U (ix2 p k) * W (ix2 k j) := by
  simp only [matmul]
  rw [Ideal.matmul_constant_zero_apply, ← Equiv.sum_comp (contrEquiv1 dot_S2048x65_S65x512_S2048x512_1_0_0_1_n_n 65 rfl rfl).symm]
  refine Finset.sum_congr rfl fun k _ => ?_
  have hk := contrEquiv1_symm_val dot_S2048x65_S65x512_S2048x512_1_0_0_1_n_n 65 rfl rfl k
  have el : dot_S2048x65_S65x512_S2048x512_1_0_0_1_n_n.lhsIdx (ix2 p j) ((contrEquiv1 dot_S2048x65_S65x512_S2048x512_1_0_0_1_n_n 65 rfl rfl).symm k) = ix2 p k := funext fun a => Fin.ext (by
    match a with
    | ⟨0, _⟩ => exact p3_lhs_0 _ _
    | ⟨1, _⟩ => exact (p3_lhs_1 _ _).trans hk)
  have er : dot_S2048x65_S65x512_S2048x512_1_0_0_1_n_n.rhsIdx (ix2 p j) ((contrEquiv1 dot_S2048x65_S65x512_S2048x512_1_0_0_1_n_n 65 rfl rfl).symm k) = ix2 k j := funext fun a => Fin.ext (by
    match a with
    | ⟨0, _⟩ => exact (p3_rhs_0 _ _).trans hk
    | ⟨1, _⟩ => exact p3_rhs_1 _ _)
  rw [el, er]

/-- One slab of the third layer at an index. -/
theorem hidden3_apply (U : FVec Ideal S2048x65 .bf16) (w3 : Vec Ideal S65x512 .bf16) (p : Fin 2048) (j : Fin 512) :
    hidden3 U w3 (ix2 p j) = max (∑ k : Fin 65, U (ix2 p k) * w3 (ix2 k j)) 0 := by
  unfold hidden3
  rw [maximumf_apply, truncf_apply, shapeCast_self, prod3_apply, broadcast_apply, relu_zero_bf16]

/-! ## The last layer's block product: [2048, 512] by [512, 128] -/

theorem p4_lhs_0 (i : S2048x128.Idx) (q : dot_S2048x512_S512x128_S2048x128_1_0_0_1_n_n.contr.Idx) :
    (dot_S2048x512_S512x128_S2048x128_1_0_0_1_n_n.lhsIdx i q 0).val = (i 0).val := by
  unfold DotDims.lhsIdx
  rw [dif_neg (show ¬(0 : Fin S2048x512.rank) ∈ dot_S2048x512_S512x128_S2048x128_1_0_0_1_n_n.lhsBatch by decide), dif_pos (show (0 : Fin S2048x512.rank) ∈ dot_S2048x512_S512x128_S2048x128_1_0_0_1_n_n.lhsNonContracting by decide)]
  rfl
theorem p4_lhs_1 (i : S2048x128.Idx) (q : dot_S2048x512_S512x128_S2048x128_1_0_0_1_n_n.contr.Idx) :
    (dot_S2048x512_S512x128_S2048x128_1_0_0_1_n_n.lhsIdx i q 1).val = (q ⟨0, by decide⟩).val :=
  dot_S2048x512_S512x128_S2048x128_1_0_0_1_n_n.lhsIdx_val_of_single rfl i q
theorem p4_rhs_0 (i : S2048x128.Idx) (q : dot_S2048x512_S512x128_S2048x128_1_0_0_1_n_n.contr.Idx) :
    (dot_S2048x512_S512x128_S2048x128_1_0_0_1_n_n.rhsIdx i q 0).val = (q ⟨0, by decide⟩).val :=
  dot_S2048x512_S512x128_S2048x128_1_0_0_1_n_n.rhsIdx_val_of_single rfl i q
theorem p4_rhs_1 (i : S2048x128.Idx) (q : dot_S2048x512_S512x128_S2048x128_1_0_0_1_n_n.contr.Idx) :
    (dot_S2048x512_S512x128_S2048x128_1_0_0_1_n_n.rhsIdx i q 1).val = (i 1).val := by
  unfold DotDims.rhsIdx
  rw [dif_neg (show ¬(1 : Fin S512x128.rank) ∈ dot_S2048x512_S512x128_S2048x128_1_0_0_1_n_n.rhsBatch by decide), dif_pos (show (1 : Fin S512x128.rank) ∈ dot_S2048x512_S512x128_S2048x128_1_0_0_1_n_n.rhsNonContracting by decide)]
  rfl

/-- Row `p` of `H` against column `n` of `W`. -/
theorem prod4_apply (H : FVec Ideal S2048x512 .bf16) (W : FVec Ideal S512x128 .bf16) (p : Fin 2048) (n : Fin 128) :
    matmul dot_S2048x512_S512x128_S2048x128_1_0_0_1_n_n none H W (constant (F := Ideal) S2048x128 .f32 0x00000000#32) (ix2 p n)
      = ∑ j : Fin 512, H (ix2 p j) * W (ix2 j n) := by
  simp only [matmul]
  rw [Ideal.matmul_constant_zero_apply, ← Equiv.sum_comp (contrEquiv1 dot_S2048x512_S512x128_S2048x128_1_0_0_1_n_n 512 rfl rfl).symm]
  refine Finset.sum_congr rfl fun k _ => ?_
  have hk := contrEquiv1_symm_val dot_S2048x512_S512x128_S2048x128_1_0_0_1_n_n 512 rfl rfl k
  have el : dot_S2048x512_S512x128_S2048x128_1_0_0_1_n_n.lhsIdx (ix2 p n) ((contrEquiv1 dot_S2048x512_S512x128_S2048x128_1_0_0_1_n_n 512 rfl rfl).symm k) = ix2 p k := funext fun a => Fin.ext (by
    match a with
    | ⟨0, _⟩ => exact p4_lhs_0 _ _
    | ⟨1, _⟩ => exact (p4_lhs_1 _ _).trans hk)
  have er : dot_S2048x512_S512x128_S2048x128_1_0_0_1_n_n.rhsIdx (ix2 p n) ((contrEquiv1 dot_S2048x512_S512x128_S2048x128_1_0_0_1_n_n 512 rfl rfl).symm k) = ix2 k n := funext fun a => Fin.ext (by
    match a with
    | ⟨0, _⟩ => exact (p4_rhs_0 _ _).trans hk
    | ⟨1, _⟩ => exact p4_rhs_1 _ _)
  rw [el, er]

/-- One slab's contribution to the last layer at an index. -/
theorem slab34_apply (U : FVec Ideal S2048x65 .bf16) (w3 : Vec Ideal S65x512 .bf16) (w4 : Vec Ideal S512x128 .bf16)
    (p : Fin 2048) (n : Fin 128) :
    slab34 U w3 w4 (ix2 p n) = ∑ j : Fin 512, max (∑ k : Fin 65, U (ix2 p k) * w3 (ix2 k j)) 0 * w4 (ix2 j n) := by
  unfold slab34
  rw [prod4_apply]
  refine Finset.sum_congr rfl fun j _ => ?_
  rw [hidden3_apply, shapeCast_self]

end Cert.KernelIdeal.Stream

end
-- ==== Proof.StreamAt.lean ====
/-
  A whole row stream read at an index.

  With the eight slabs summed (`SiameseSums.eight_slabs`), the second layer before its ReLU at row `r`,
  column `q` is `∑ J < 4096, max (∑ k < 33, X[r,k] · W1aug[k,J]) 0 · W2[J,q] + b2[q]`. The re-paired
  operand `U` has, in row `p`, the ReLU of that at row `p` in columns 0..31, at row `2048 + p` in
  columns 32..63, and `1` in column 64. The last layer at row `p`, column `n` is
  `∑ J < 4096, max (∑ k < 65, U[p,k] · W3aug[k,J]) 0 · W4[J,n] + b4[n]`.
-/
import proofs.«152644_g11802570129985_cont_fleet_79_15_alg».proof.Proof.BodyAt

noncomputable section

namespace Cert.KernelIdeal.Stream

open Cert.KernelIdeal Cert.KernelIdeal.Gen Idealize.ShloMosaic Idealize.ShloMosaic.TcCoe Idealize.ShloMosaic.ValueIdx

/-- A load through a unit-stride rectangle of a matrix reads the matrix at the offset index. -/
theorem ld_at {n0 n1 m0 m1 : ℕ} {e : EltTy} (x : Vec Ideal ⟨2, ![n0, n1]⟩ e) (o0 o1 : ℕ)
    (inb : ∀ a, (![o0, o1] : Fin 2 → ℕ) a + (⟨2, ![m0, m1]⟩ : Shape).size a ≤ (⟨2, ![n0, n1]⟩ : Shape).size a)
    (p : Fin m0) (q : Fin m1) (P : Fin n0) (Q : Fin n1) (hP : P.val = o0 + p.val) (hQ : Q.val = o1 + q.val) :
    View.ld x (Rect.unit (s := ⟨2, ![n0, n1]⟩) ![o0, o1] (⟨2, ![m0, m1]⟩ : Shape).size inb) (ix2 p q) = x (ix2 P Q) := by
  show x _ = x _
  refine congrArg x (funext fun a => Fin.ext ?_)
  match a with
  | ⟨0, _⟩ => show o0 + 1 * p.val = P.val; omega
  | ⟨1, _⟩ => show o1 + 1 * q.val = Q.val; omega

theorem hz : (![0, 0] : Fin 2 → Nat) = fun _ => 0 := funext fun a => by fin_cases a <;> rfl

/-- The f32 zero the ReLU compares with, and the one of the appended column. -/
theorem relu_zero_f32 : (Scalar.ofBits (F := Ideal) .f32 0x00000000#32) = (0 : EReal) := Ideal.ofBits_zero_f32
theorem ones_f32 : (Scalar.ofBits (F := Ideal) .f32 0x3F800000#32) = (1 : EReal) := Ideal.ofBits_one_f32

/-! ## Layers 1–2 -/

/-- The term of hidden unit `J` in the second layer's sum at row `r`, column `q`. -/
def term12 (X : FVec Ideal S4096x33 .bf16) (x1 : Vec Ideal S33x4096 .bf16) (x2 : Vec Ideal S4096x32 .bf16)
    (r : Fin 4096) (q : Fin 32) (J : Fin 4096) : EReal :=
  max (∑ k : Fin 33, X (ix2 r k) * x1 (ix2 k J)) 0 * x2 (ix2 J q)

/-- The slab loaded from column offset `o` of the first weight block and row offset `o` of the second
    contributes the hidden units `o .. o + 512`. -/
theorem slab12_at (X : FVec Ideal S4096x33 .bf16) (x1 : Vec Ideal S33x4096 .bf16) (x2 : Vec Ideal S4096x32 .bf16)
    (o : ℕ) (h : o + 512 ≤ 4096)
    (inb1 : ∀ a, (![0, o] : Fin 2 → ℕ) a + S33x512.size a ≤ S33x4096.size a)
    (inb2 : ∀ a, (![o, 0] : Fin 2 → ℕ) a + S512x32.size a ≤ S4096x32.size a) (r : Fin 4096) (q : Fin 32) :
    slab12 X (View.ld x1 (Rect.unit (s := S33x4096) ![0, o] S33x512.size inb1))
      (View.ld x2 (Rect.unit (s := S4096x32) ![o, 0] S512x32.size inb2)) (ix2 r q)
      = ∑ j : Fin 512, term12 X x1 x2 r q (SiameseSums.slab o h j) := by
  rw [slab12_apply]
  refine Finset.sum_congr rfl fun j _ => ?_
  unfold term12
  rw [ld_at x2 o 0 inb2 j q (SiameseSums.slab o h j) q rfl (Nat.zero_add _).symm]
  refine congrArg (fun s => max s 0 * _) (Finset.sum_congr rfl fun k _ => ?_)
  rw [ld_at x1 0 o inb1 k j k (SiameseSums.slab o h j) (Nat.zero_add _).symm rfl]

/-- The second layer before its ReLU, at an index. -/
theorem acc2_apply (X : FVec Ideal S4096x33 .bf16) (x1 : Vec Ideal S33x4096 .bf16) (x2 : Vec Ideal S4096x32 .bf16)
    (x3 : Vec Ideal S1x32 .f32) (r : Fin 4096) (q : Fin 32) :
    acc2 X x1 x2 x3 (ix2 r q) = ∑ J : Fin 4096, term12 X x1 x2 r q J + x3 (ix2 (0 : Fin 1) q) := by
  unfold acc2
  simp only [addf_apply]
  rw [broadcastTo_1b_ab_apply]
  simp only [View.ld_unit_zero (S := S1x32) hz]
  erw [shapeCast_self]
  rw [slab12_at X x1 x2 0 (by norm_num), slab12_at X x1 x2 512 (by norm_num), slab12_at X x1 x2 1024 (by norm_num),
    slab12_at X x1 x2 1536 (by norm_num), slab12_at X x1 x2 2048 (by norm_num), slab12_at X x1 x2 2560 (by norm_num),
    slab12_at X x1 x2 3072 (by norm_num), slab12_at X x1 x2 3584 (by norm_num)]
  exact SiameseSums.eight_slabs (term12 X x1 x2 r q) (x3 (ix2 (0 : Fin 1) q))

/-! ## The re-pairing -/

/-- Columns 0..31 of the re-paired operand: the first branch's row, after the ReLU. -/
theorem paired_first (A : FVec Ideal S4096x32 .f32) (p : Fin 2048) (k : Fin 32) (K : Fin 65) (hK : K.val = k.val)
    (R : Fin 4096) (hR : R.val = p.val) : paired A (ix2 p K) = max (A (ix2 R k)) 0 := by
  unfold paired
  rw [truncf_apply]
  refine (concatenate_apply_piece (t := S2048x65) 1 _ _ (ix2 p K)
    0 (by simp) S2048x32 _ rfl rfl 0 rfl (ix2 p k) (fun b hb => ?_) ?_).trans ?_
  · match b with
    | ⟨0, _⟩ => rfl
    | ⟨1, _⟩ => exact absurd rfl hb
  · show 0 + k.val = K.val; omega
  · rw [slice2_axis0_apply 0 _ slices_S4096x32_o0_0_S2048x32 p k R (by omega), maximumf_apply, broadcast_apply, relu_zero_f32]

/-- Columns 32..63: the second branch's row, 2048 rows further down, after the ReLU. -/
theorem paired_second (A : FVec Ideal S4096x32 .f32) (p : Fin 2048) (k : Fin 32) (K : Fin 65) (hK : K.val = 32 + k.val)
    (R : Fin 4096) (hR : R.val = 2048 + p.val) : paired A (ix2 p K) = max (A (ix2 R k)) 0 := by
  unfold paired
  rw [truncf_apply]
  refine (concatenate_apply_piece (t := S2048x65) 1 _ _ (ix2 p K)
    1 (by simp) S2048x32 _ rfl rfl 32 rfl (ix2 p k) (fun b hb => ?_) ?_).trans ?_
  · match b with
    | ⟨0, _⟩ => rfl
    | ⟨1, _⟩ => exact absurd rfl hb
  · show 32 + k.val = K.val; omega
  · rw [slice2_axis0_apply 2048 _ slices_S4096x32_o2048_0_S2048x32 p k R hR, maximumf_apply, broadcast_apply, relu_zero_f32]

/-- Column 64: the appended one. -/
theorem paired_last (A : FVec Ideal S4096x32 .f32) (p : Fin 2048) (K : Fin 65) (hK : K.val = 64) :
    paired A (ix2 p K) = 1 := by
  unfold paired
  rw [truncf_apply]
  refine (concatenate_apply_piece (t := S2048x65) 1 _ _ (ix2 p K)
    2 (by simp) S2048x1 _ rfl rfl 64 rfl (ix2 p (0 : Fin 1)) (fun b hb => ?_) ?_).trans ?_
  · match b with
    | ⟨0, _⟩ => rfl
    | ⟨1, _⟩ => exact absurd rfl hb
  · show 64 + 0 = K.val; omega
  · rw [broadcast_apply, ones_f32]

/-! ## Layers 3–4 -/

/-- The term of hidden unit `J` in the last layer's sum at row `p`, column `n`. -/
def term34 (U : FVec Ideal S2048x65 .bf16) (x4 : Vec Ideal S65x4096 .bf16) (x5 : Vec Ideal S4096x128 .bf16)
    (p : Fin 2048) (n : Fin 128) (J : Fin 4096) : EReal :=
  max (∑ k : Fin 65, U (ix2 p k) * x4 (ix2 k J)) 0 * x5 (ix2 J n)

theorem slab34_at (U : FVec Ideal S2048x65 .bf16) (x4 : Vec Ideal S65x4096 .bf16) (x5 : Vec Ideal S4096x128 .bf16)
    (o : ℕ) (h : o + 512 ≤ 4096)
    (inb1 : ∀ a, (![0, o] : Fin 2 → ℕ) a + S65x512.size a ≤ S65x4096.size a)
    (inb2 : ∀ a, (![o, 0] : Fin 2 → ℕ) a + S512x128.size a ≤ S4096x128.size a) (p : Fin 2048) (n : Fin 128) :
    slab34 U (View.ld x4 (Rect.unit (s := S65x4096) ![0, o] S65x512.size inb1))
      (View.ld x5 (Rect.unit (s := S4096x128) ![o, 0] S512x128.size inb2)) (ix2 p n)
      = ∑ j : Fin 512, term34 U x4 x5 p n (SiameseSums.slab o h j) := by
  rw [slab34_apply]
  refine Finset.sum_congr rfl fun j _ => ?_
  unfold term34
  rw [ld_at x5 o 0 inb2 j n (SiameseSums.slab o h j) n rfl (Nat.zero_add _).symm]
  refine congrArg (fun s => max s 0 * _) (Finset.sum_congr rfl fun k _ => ?_)
  rw [ld_at x4 0 o inb1 k j k (SiameseSums.slab o h j) (Nat.zero_add _).symm rfl]

/-- The last layer at an index. -/
theorem acc4_apply (U : FVec Ideal S2048x65 .bf16) (x4 : Vec Ideal S65x4096 .bf16) (x5 : Vec Ideal S4096x128 .bf16)
    (x6 : Vec Ideal S1x128 .f32) (p : Fin 2048) (n : Fin 128) :
    acc4 U x4 x5 x6 (ix2 p n) = ∑ J : Fin 4096, term34 U x4 x5 p n J + x6 (ix2 (0 : Fin 1) n) := by
  unfold acc4
  simp only [addf_apply]
  rw [broadcastTo_1b_ab_apply]
  simp only [View.ld_unit_zero (S := S1x128) hz]
  erw [shapeCast_self]
  rw [slab34_at U x4 x5 0 (by norm_num), slab34_at U x4 x5 512 (by norm_num), slab34_at U x4 x5 1024 (by norm_num),
    slab34_at U x4 x5 1536 (by norm_num), slab34_at U x4 x5 2048 (by norm_num), slab34_at U x4 x5 2560 (by norm_num),
    slab34_at U x4 x5 3072 (by norm_num), slab34_at U x4 x5 3584 (by norm_num)]
  exact SiameseSums.eight_slabs (term34 U x4 x5 p n) (x6 (ix2 (0 : Fin 1) n))

/-! ## The stream -/

/-- A branch's 32-wide embedding at stacked row `r`: the second layer after its ReLU. -/
def emb (Xl : Vec Ideal S4096x33 .bf16) (x1 : Vec Ideal S33x4096 .bf16) (x2 : Vec Ideal S4096x32 .bf16)
    (x3 : Vec Ideal S1x32 .f32) (r : Fin 4096) (q : Fin 32) : EReal :=
  max (∑ J : Fin 4096, max (∑ k : Fin 33, Xl (ix2 r k) * x1 (ix2 k J)) 0 * x2 (ix2 J q) + x3 (ix2 (0 : Fin 1) q)) 0

/-- The third layer's pre-activation at hidden unit `J`: the two branches' embeddings against the two
    halves of the weight block, and the appended one against its last row. -/
theorem pair_dot (Xl : Vec Ideal S4096x33 .bf16) (x1 : Vec Ideal S33x4096 .bf16) (x2 : Vec Ideal S4096x32 .bf16)
    (x3 : Vec Ideal S1x32 .f32) (x4 : Vec Ideal S65x4096 .bf16) (p : Fin 2048) (J : Fin 4096) :
    ∑ k : Fin 65, paired (acc2 (shapeCast S4096x33 Xl shapeCasts_S4096x33_S4096x33) x1 x2 x3) (ix2 p k) * x4 (ix2 k J)
      = (∑ k : Fin 32, emb Xl x1 x2 x3 ⟨p.val, by omega⟩ k * x4 (ix2 ⟨k.val, by omega⟩ J)
          + ∑ k : Fin 32, emb Xl x1 x2 x3 ⟨2048 + p.val, by omega⟩ k * x4 (ix2 ⟨32 + k.val, by omega⟩ J))
        + x4 (ix2 ⟨64, by norm_num⟩ J) := by
  rw [SiameseSums.dot_ones_last (n := 64) _ _ (paired_last _ p _ rfl), SiameseSums.sum_split 32 32]
  refine congrArg₂ (· + ·) (congrArg₂ (· + ·) (Finset.sum_congr rfl fun k _ => ?_) (Finset.sum_congr rfl fun k _ => ?_)) rfl
  · rw [paired_first _ p k _ rfl ⟨p.val, by omega⟩ rfl, acc2_apply, shapeCast_self]
    rfl
  · rw [paired_second _ p k _ rfl ⟨2048 + p.val, by omega⟩ rfl, acc2_apply, shapeCast_self]
    rfl

/-- A stream's output at row `p`, column `n`. -/
theorem stream_apply (Xl : Vec Ideal S4096x33 .bf16) (x1 : Vec Ideal S33x4096 .bf16) (x2 : Vec Ideal S4096x32 .bf16)
    (x3 : Vec Ideal S1x32 .f32) (x4 : Vec Ideal S65x4096 .bf16) (x5 : Vec Ideal S4096x128 .bf16) (x6 : Vec Ideal S1x128 .f32)
    (p : Fin 2048) (n : Fin 128) :
    stream Xl x1 x2 x3 x4 x5 x6 (ix2 p n)
      = ∑ J : Fin 4096, max ((∑ k : Fin 32, emb Xl x1 x2 x3 ⟨p.val, by omega⟩ k * x4 (ix2 ⟨k.val, by omega⟩ J)
            + ∑ k : Fin 32, emb Xl x1 x2 x3 ⟨2048 + p.val, by omega⟩ k * x4 (ix2 ⟨32 + k.val, by omega⟩ J))
          + x4 (ix2 ⟨64, by norm_num⟩ J)) 0 * x5 (ix2 J n)
        + x6 (ix2 (0 : Fin 1) n) := by
  unfold stream
  rw [acc4_apply]
  refine congrArg (· + _) (Finset.sum_congr rfl fun J _ => ?_)
  unfold term34
  rw [pair_dot]

end Cert.KernelIdeal.Stream

end
-- ==== Proof.Arrays.lean ====
/-
  The arrays the kernel's windows read, as functions of the arguments.

  Before the launch the host program builds:
    * the stacked input: each of the two inputs gets a trailing column of ones; both are cut into 8 groups
      of 2048 rows; group `g` of the first is followed by group `g` of the second; the 8 pairs are laid end
      to end. Row `4096 g + p` of the result is row `2048 g + p` of the first input for `p < 2048` and row
      `2048 g + (p - 2048)` of the second otherwise;
    * the first and third weight matrices with their bias appended as a last ROW;
    * the second and fourth weight matrices as they are, and the second and fourth biases as one-row matrices.
  All narrowings are the identity at the ideal values.
-/
import proofs.«152644_g11802570129985_cont_fleet_79_15_alg».proof.Proof.Gen.KernelIdeal.Frame
import Idealize.ShloMosaic.Lib.StableHlo.Run
import Idealize.ShloMosaic.Lib.ValueIdx
import Idealize.ShloMosaic.Lib.ValueLayout
import Idealize.ShloMosaic.Lib.Pipeline.Value
import Idealize.ShloMosaic.Lib.IdealHost

noncomputable section

namespace Cert.KernelIdeal.Arrays

open Cert.KernelIdeal Cert.KernelIdeal.Gen Idealize.ShloMosaic Idealize.ShloMosaic.TcCoe Idealize.ShloMosaic.ValueIdx
open Idealize.SL.Sem Idealize.ShloMosaic.StableHlo

/-- An input with a trailing column of ones. -/
def withOnes (x : FVec Ideal S16384x32 .f32) : FVec Ideal S16384x33 .bf16 :=
  truncf (F := Ideal) .bf16 (concatenate S16384x33 1 [⟨S16384x32, x⟩,
    ⟨S16384x1, broadcastInDim S16384x1 ![] bcast_S_S16384x1 (constant (F := Ideal) S_ .f32 0x3F800000#32)⟩]
    concatenates_S16384x32_S16384x1_S16384x33_d1) bitsLt_bf16_f32

/-- The two inputs stacked group by group. -/
def stacked (s n : FVec Ideal S16384x32 .f32) : FVec Ideal S32768x33 .bf16 :=
  shapeCast S32768x33 (concatenate S8x4096x33 1
    [⟨S8x2048x33, shapeCast S8x2048x33 (withOnes s) shapeCasts_S16384x33_S8x2048x33⟩,
     ⟨S8x2048x33, shapeCast S8x2048x33 (withOnes n) shapeCasts_S16384x33_S8x2048x33⟩]
    concatenates_S8x2048x33_S8x2048x33_S8x4096x33_d1) shapeCasts_S8x4096x33_S32768x33

/-- The first weight matrix with its bias as row 32. -/
def withBias33 (W : FVec Ideal S32x4096 .f32) (b : FVec Ideal S4096 .f32) : FVec Ideal S33x4096 .bf16 :=
  truncf (F := Ideal) .bf16 (concatenate S33x4096 0 [⟨S32x4096, W⟩, ⟨S1x4096, broadcastInDim S1x4096 ![1] bcast_S4096_S1x4096_1 b⟩]
    concatenates_S32x4096_S1x4096_S33x4096_d0) bitsLt_bf16_f32

/-- The third weight matrix with its bias as row 64. -/
def withBias65 (W : FVec Ideal S64x4096 .f32) (b : FVec Ideal S4096 .f32) : FVec Ideal S65x4096 .bf16 :=
  truncf (F := Ideal) .bf16 (concatenate S65x4096 0 [⟨S64x4096, W⟩, ⟨S1x4096, broadcastInDim S1x4096 ![1] bcast_S4096_S1x4096_1 b⟩]
    concatenates_S64x4096_S1x4096_S65x4096_d0) bitsLt_bf16_f32

/-! ## Read at an index -/

theorem withOnes_entry (x : FVec Ideal S16384x32 .f32) (B : Fin 16384) (k : Fin 32) (K : Fin 33) (hK : K.val = k.val) :
    withOnes x (ix2 B K) = x (ix2 B k) := by
  unfold withOnes
  rw [truncf_apply]
  exact concatenate_pair_apply_left 1 _ _ concatenates_S16384x32_S16384x1_S16384x33_d1 (ix2 B K) rfl (ix2 B k)
    (fun b => by
      match b with
      | ⟨0, _⟩ => rfl
      | ⟨1, _⟩ => exact hK.symm)

theorem withOnes_one (x : FVec Ideal S16384x32 .f32) (B : Fin 16384) (K : Fin 33) (hK : K.val = 32) :
    withOnes x (ix2 B K) = 1 := by
  unfold withOnes
  rw [truncf_apply]
  refine (concatenate_pair_apply_right 1 _ _ concatenates_S16384x32_S16384x1_S16384x33_d1 (ix2 B K) rfl rfl
    (ix2 B (0 : Fin 1)) (fun b hb => ?_) ?_).trans ?_
  · match b with
    | ⟨0, _⟩ => rfl
    | ⟨1, _⟩ => exact absurd rfl hb
  · show 0 + 32 = K.val; omega
  · rw [broadcastInDim_scalar_apply, constant_apply]
    exact Ideal.ofBits_one_f32

/-- Row `4096 g + p`, `p < 2048`, of the stacked input is row `2048 g + p` of the first input (with its one). -/
theorem stacked_first (s n : FVec Ideal S16384x32 .f32) (g : Fin 8) (p : Fin 2048) (K : Fin 33)
    (R : Fin 32768) (hR : R.val = 4096 * g.val + p.val) (B : Fin 16384) (hB : B.val = 2048 * g.val + p.val) :
    stacked s n (ix2 R K) = withOnes s (ix2 B K) := by
  unfold stacked
  rw [shapeCast_apply _ shapeCasts_S8x4096x33_S32768x33 (ix2 R K) (ix3 g (⟨p.val, by omega⟩ : Fin 4096) K) (by
    rw [Shape.rowMajor_val_three, Shape.rowMajor_val_two]
    show (g.val * 4096 + p.val) * 33 + K.val = R.val * 33 + K.val
    omega)]
  refine (concatenate_pair_apply_left 1 _ _ concatenates_S8x2048x33_S8x2048x33_S8x4096x33_d1
    (ix3 g (⟨p.val, by omega⟩ : Fin 4096) K) rfl (ix3 g p K) (fun b => by
      match b with
      | ⟨0, _⟩ => rfl
      | ⟨1, _⟩ => rfl
      | ⟨2, _⟩ => rfl)).trans ?_
  exact shapeCast_apply _ shapeCasts_S16384x33_S8x2048x33 (ix3 g p K) (ix2 B K) (by
    rw [Shape.rowMajor_val_three, Shape.rowMajor_val_two]
    show B.val * 33 + K.val = (g.val * 2048 + p.val) * 33 + K.val
    omega)

/-- Row `4096 g + 2048 + p` of the stacked input is row `2048 g + p` of the second input (with its one). -/
theorem stacked_second (s n : FVec Ideal S16384x32 .f32) (g : Fin 8) (p : Fin 2048) (K : Fin 33)
    (R : Fin 32768) (hR : R.val = 4096 * g.val + 2048 + p.val) (B : Fin 16384) (hB : B.val = 2048 * g.val + p.val) :
    stacked s n (ix2 R K) = withOnes n (ix2 B K) := by
  unfold stacked
  rw [shapeCast_apply _ shapeCasts_S8x4096x33_S32768x33 (ix2 R K) (ix3 g (⟨2048 + p.val, by omega⟩ : Fin 4096) K) (by
    rw [Shape.rowMajor_val_three, Shape.rowMajor_val_two]
    show (g.val * 4096 + (2048 + p.val)) * 33 + K.val = R.val * 33 + K.val
    omega)]
  refine (concatenate_pair_apply_right 1 _ _ concatenates_S8x2048x33_S8x2048x33_S8x4096x33_d1
    (ix3 g (⟨2048 + p.val, by omega⟩ : Fin 4096) K) rfl rfl (ix3 g p K) (fun b hb => ?_) ?_).trans ?_
  · match b with
    | ⟨0, _⟩ => rfl
    | ⟨1, _⟩ => exact absurd rfl hb
    | ⟨2, _⟩ => rfl
  · show p.val + 2048 = 2048 + p.val; omega
  · exact shapeCast_apply _ shapeCasts_S16384x33_S8x2048x33 (ix3 g p K) (ix2 B K) (by
      rw [Shape.rowMajor_val_three, Shape.rowMajor_val_two]
      show B.val * 33 + K.val = (g.val * 2048 + p.val) * 33 + K.val
      omega)

/-- A bias placed as a one-row matrix, read in that row. -/
theorem biasRow_apply (b : FVec Ideal S4096 .f32) (J : Fin 4096) :
    broadcastInDim S1x4096 ![1] bcast_S4096_S1x4096_1 b (ix2 (0 : Fin 1) J) = b (ix1 J) :=
  broadcastInDim_apply _ bcast_S4096_S1x4096_1 b (ix2 (0 : Fin 1) J) (ix1 J) (fun a => match a with
    | ⟨0, _⟩ => by show J.val = if (4096 : Nat) = 1 then 0 else J.val; rw [if_neg (by decide)])

theorem withBias33_entry (W : FVec Ideal S32x4096 .f32) (b : FVec Ideal S4096 .f32) (k : Fin 32) (K : Fin 33)
    (hK : K.val = k.val) (J : Fin 4096) : withBias33 W b (ix2 K J) = W (ix2 k J) := by
  unfold withBias33
  rw [truncf_apply]
  exact concatenate_pair_apply_left 0 _ _ concatenates_S32x4096_S1x4096_S33x4096_d0 (ix2 K J) rfl (ix2 k J)
    (fun a => by
      match a with
      | ⟨0, _⟩ => exact hK.symm
      | ⟨1, _⟩ => rfl)

theorem withBias33_last (W : FVec Ideal S32x4096 .f32) (b : FVec Ideal S4096 .f32) (K : Fin 33) (hK : K.val = 32)
    (J : Fin 4096) : withBias33 W b (ix2 K J) = b (ix1 J) := by
  unfold withBias33
  rw [truncf_apply]
  refine (concatenate_pair_apply_right 0 _ _ concatenates_S32x4096_S1x4096_S33x4096_d0 (ix2 K J) rfl rfl
    (ix2 (0 : Fin 1) J) (fun a ha => ?_) ?_).trans (biasRow_apply b J)
  · match a with
    | ⟨0, _⟩ => exact absurd rfl ha
    | ⟨1, _⟩ => rfl
  · show 0 + 32 = K.val; omega

theorem withBias65_entry (W : FVec Ideal S64x4096 .f32) (b : FVec Ideal S4096 .f32) (k : Fin 64) (K : Fin 65)
    (hK : K.val = k.val) (J : Fin 4096) : withBias65 W b (ix2 K J) = W (ix2 k J) := by
  unfold withBias65
  rw [truncf_apply]
  exact concatenate_pair_apply_left 0 _ _ concatenates_S64x4096_S1x4096_S65x4096_d0 (ix2 K J) rfl (ix2 k J)
    (fun a => by
      match a with
      | ⟨0, _⟩ => exact hK.symm
      | ⟨1, _⟩ => rfl)

theorem withBias65_last (W : FVec Ideal S64x4096 .f32) (b : FVec Ideal S4096 .f32) (K : Fin 65) (hK : K.val = 64)
    (J : Fin 4096) : withBias65 W b (ix2 K J) = b (ix1 J) := by
  unfold withBias65
  rw [truncf_apply]
  refine (concatenate_pair_apply_right 0 _ _ concatenates_S64x4096_S1x4096_S65x4096_d0 (ix2 K J) rfl rfl
    (ix2 (0 : Fin 1) J) (fun a ha => ?_) ?_).trans (biasRow_apply b J)
  · match a with
    | ⟨0, _⟩ => exact absurd rfl ha
    | ⟨1, _⟩ => rfl
  · show 0 + 64 = K.val; omega

/-! ## The windows' arrays as the region finds them -/

variable (m : (ℓ : Loc nD τ sig) → Buf (Elt Ideal) ℓ)

theorem V_stacked (c : Dev nD) : (V m c main_v8 : S32768x33.Idx → EReal)
    = stacked (m ((c : Thread nD τ).loc main_arg0)) (m ((c : Thread nD τ).loc main_arg1)) := by
  dsimp only [Gen.V, Gen.hostOps0]; after_results; rfl

theorem V_w1 (c : Dev nD) : (V m c main_v11 : S33x4096.Idx → EReal)
    = withBias33 (m ((c : Thread nD τ).loc main_arg2)) (m ((c : Thread nD τ).loc main_arg3)) := by
  dsimp only [Gen.V, Gen.hostOps0]; after_results; rfl

theorem V_w2 (c : Dev nD) : (V m c main_v15 : S4096x32.Idx → EReal)
    = (truncf (F := Ideal) .bf16 (m ((c : Thread nD τ).loc main_arg4) : FVec Ideal S4096x32 .f32) bitsLt_bf16_f32 : S4096x32.Idx → EReal) := by
  dsimp only [Gen.V, Gen.hostOps0]; after_results

theorem V_b2 (c : Dev nD) : (V m c main_v16 : S1x32.Idx → EReal)
    = shapeCast S1x32 (m ((c : Thread nD τ).loc main_arg5)) shapeCasts_S32_S1x32 := by
  dsimp only [Gen.V, Gen.hostOps0]; after_results; rfl

theorem V_w3 (c : Dev nD) : (V m c main_v14 : S65x4096.Idx → EReal)
    = withBias65 (m ((c : Thread nD τ).loc main_arg6)) (m ((c : Thread nD τ).loc main_arg7)) := by
  dsimp only [Gen.V, Gen.hostOps0]; after_results; rfl

theorem V_w4 (c : Dev nD) : (V m c main_v17 : S4096x128.Idx → EReal)
    = (truncf (F := Ideal) .bf16 (m ((c : Thread nD τ).loc main_arg8) : FVec Ideal S4096x128 .f32) bitsLt_bf16_f32 : S4096x128.Idx → EReal) := by
  dsimp only [Gen.V, Gen.hostOps0]; after_results

theorem V_b4 (c : Dev nD) : (V m c main_v18 : S1x128.Idx → EReal)
    = shapeCast S1x128 (m ((c : Thread nD τ).loc main_arg9)) shapeCasts_S128_S1x128 := by
  dsimp only [Gen.V, Gen.hostOps0]; after_results; rfl

end Cert.KernelIdeal.Arrays

end
-- ==== Proof.Spec.lean ====
/-
  The network both programs compute, as one function of the ten argument arrays, index by index, on
  the extended reals.

  For batch row `B`:
    * a branch's hidden unit `J`:        `h(x)[J]  = max (∑ k < 32, x[B,k] · W1[k,J] + b1[J]) 0`
    * a branch's embedding, column `q`:  `e(x)[q]  = max (∑ J < 4096, h(x)[J] · W2[J,q] + b2[q]) 0`
    * the joint hidden unit `J`:         `h3[J]    = max ((∑ k < 32, e(s)[k] · W3[k,J] + ∑ k < 32, e(n)[k] · W3[32+k,J]) + b3[J]) 0`
    * the output, column `c`:            `out[B,c] = ∑ J < 4096, h3[J] · W4[J,c] + b4[c]`
  The joint layer's sum over the 64 concatenated columns is written as its two halves, which is where the
  kernel (two halves and a ones column) and the reference (one concatenated operand) meet.
-/
import Idealize.ShloMosaic.Lib.ValueIdx
import Idealize.ShloMosaic.PureOps.Ideal

noncomputable section

namespace SiameseSpec

open Idealize.ShloMosaic Idealize.ShloMosaic.ValueIdx

/-- A matrix, a vector of extended reals over literal extents. -/
abbrev Mat (a b : ℕ) : Type := (⟨2, ![a, b]⟩ : Shape).Idx → EReal
abbrev Row (a : ℕ) : Type := (⟨1, ![a]⟩ : Shape).Idx → EReal

variable (W1 : Mat 32 4096) (b1 : Row 4096) (W2 : Mat 4096 32) (b2 : Row 32)

/-- A branch's first hidden layer. -/
def hid (x : Mat 16384 32) (B : Fin 16384) (J : Fin 4096) : EReal :=
  max (∑ k : Fin 32, x (ix2 B k) * W1 (ix2 k J) + b1 (ix1 J)) 0

/-- A branch's 32-wide embedding. -/
def emb (x : Mat 16384 32) (B : Fin 16384) (q : Fin 32) : EReal :=
  max (∑ J : Fin 4096, hid W1 b1 x B J * W2 (ix2 J q) + b2 (ix1 q)) 0

variable (W3 : Mat 64 4096) (b3 : Row 4096) (W4 : Mat 4096 128) (b4 : Row 128)

/-- The joint hidden layer over the two branches' embeddings. -/
def hid3 (s n : Mat 16384 32) (B : Fin 16384) (J : Fin 4096) : EReal :=
  max ((∑ k : Fin 32, emb W1 b1 W2 b2 s B k * W3 (ix2 (⟨k.val, by omega⟩ : Fin 64) J)
        + ∑ k : Fin 32, emb W1 b1 W2 b2 n B k * W3 (ix2 (⟨32 + k.val, by omega⟩ : Fin 64) J))
      + b3 (ix1 J)) 0

/-- The output entry at row `B`, column `c`. -/
def outAt (s n : Mat 16384 32) (B : Fin 16384) (c : Fin 128) : EReal :=
  ∑ J : Fin 4096, hid3 W1 b1 W2 b2 W3 b3 s n B J * W4 (ix2 J c) + b4 (ix1 c)

/-- The whole output array. -/
def out (s n : Mat 16384 32) : Mat 16384 128 :=
  fun i => outAt W1 b1 W2 b2 W3 b3 W4 b4 s n ⟨(i 0).val, (i 0).isLt⟩ ⟨(i 1).val, (i 1).isLt⟩

theorem out_apply (s n : Mat 16384 32) (B : Fin 16384) (c : Fin 128) :
    out W1 b1 W2 b2 W3 b3 W4 b4 s n (ix2 B c) = outAt W1 b1 W2 b2 W3 b3 W4 b4 s n B c := rfl

end SiameseSpec

end
-- ==== Proof.StreamSpec.lean ====
/-
  A row stream computes the network.

  Fed the stacked rows of batch row `B` (the first input's row at stream row `p`, the second's at row
  `2048 + p`, each with its trailing one) and the weight matrices with their bias rows, a stream's output
  at row `p` is the network's output at batch row `B`: the trailing one picks the bias row out of each
  augmented product (`SiameseSums.dot_ones_last`), and nothing else differs.
-/
import proofs.«152644_g11802570129985_cont_fleet_79_15_alg».proof.Proof.StreamAt
import proofs.«152644_g11802570129985_cont_fleet_79_15_alg».proof.Proof.Arrays
import proofs.«152644_g11802570129985_cont_fleet_79_15_alg».proof.Proof.Spec

noncomputable section

namespace Cert.KernelIdeal.Stream

open Cert.KernelIdeal Cert.KernelIdeal.Gen Cert.KernelIdeal.Arrays Idealize.ShloMosaic Idealize.ShloMosaic.TcCoe
open Idealize.ShloMosaic.ValueIdx

variable (W1 : FVec Ideal S32x4096 .f32) (b1 : FVec Ideal S4096 .f32) (W2 : FVec Ideal S4096x32 .f32) (b2 : FVec Ideal S32 .f32)

/-- A stacked row against a column of the first augmented matrix: the branch's pre-activation. -/
theorem aug_dot1 (x : FVec Ideal S16384x32 .f32) (Xl : Vec Ideal S4096x33 .bf16) (r : Fin 4096) (B : Fin 16384)
    (hX : ∀ K : Fin 33, Xl (ix2 r K) = withOnes x (ix2 B K)) (J : Fin 4096) :
    ∑ k : Fin 33, Xl (ix2 r k) * withBias33 W1 b1 (ix2 k J)
      = ∑ k : Fin 32, x (ix2 B k) * W1 (ix2 k J) + b1 (ix1 J) := by
  rw [SiameseSums.dot_ones_last (n := 32) (fun k => Xl (ix2 r k)) (fun k => withBias33 W1 b1 (ix2 k J))
    (by show Xl (ix2 r (Fin.last 32)) = 1; rw [hX]; exact withOnes_one x B _ rfl)]
  refine congrArg₂ (· + ·) (Finset.sum_congr rfl fun k _ => ?_) (withBias33_last W1 b1 _ rfl J)
  show Xl (ix2 r k.castSucc) * withBias33 W1 b1 (ix2 k.castSucc J) = _
  rw [hX, withOnes_entry x B k _ rfl, withBias33_entry W1 b1 k _ rfl J]

/-- The stream's embedding of a stacked row is the network's embedding of that batch row. -/
theorem emb_spec (x : FVec Ideal S16384x32 .f32) (Xl : Vec Ideal S4096x33 .bf16) (x2 : Vec Ideal S4096x32 .bf16)
    (x3 : Vec Ideal S1x32 .f32) (r : Fin 4096) (B : Fin 16384)
    (hX : ∀ K : Fin 33, Xl (ix2 r K) = withOnes x (ix2 B K))
    (h2 : ∀ (J : Fin 4096) (q : Fin 32), x2 (ix2 J q) = W2 (ix2 J q))
    (h3 : ∀ q : Fin 32, x3 (ix2 (0 : Fin 1) q) = b2 (ix1 q)) (q : Fin 32) :
    emb Xl (withBias33 W1 b1) x2 x3 r q = SiameseSpec.emb W1 b1 W2 b2 x B q := by
  unfold emb SiameseSpec.emb SiameseSpec.hid
  rw [h3]
  refine congrArg (fun s => max (s + _) 0) (Finset.sum_congr rfl fun J _ => ?_)
  rw [aug_dot1 W1 b1 x Xl r B hX J, h2]

variable (W3 : FVec Ideal S64x4096 .f32) (b3 : FVec Ideal S4096 .f32) (W4 : FVec Ideal S4096x128 .f32) (b4 : FVec Ideal S128 .f32)

/-- A stream's output entry is the network's. -/
theorem stream_spec (s n : FVec Ideal S16384x32 .f32) (Xl : Vec Ideal S4096x33 .bf16) (x2 : Vec Ideal S4096x32 .bf16)
    (x3 : Vec Ideal S1x32 .f32) (x5 : Vec Ideal S4096x128 .bf16) (x6 : Vec Ideal S1x128 .f32)
    (B : Fin 16384) (p : Fin 2048)
    (hXs : ∀ K : Fin 33, Xl (ix2 (⟨p.val, by omega⟩ : Fin 4096) K) = withOnes s (ix2 B K))
    (hXn : ∀ K : Fin 33, Xl (ix2 (⟨2048 + p.val, by omega⟩ : Fin 4096) K) = withOnes n (ix2 B K))
    (h2 : ∀ (J : Fin 4096) (q : Fin 32), x2 (ix2 J q) = W2 (ix2 J q))
    (h3 : ∀ q : Fin 32, x3 (ix2 (0 : Fin 1) q) = b2 (ix1 q))
    (h5 : ∀ (J : Fin 4096) (c : Fin 128), x5 (ix2 J c) = W4 (ix2 J c))
    (h6 : ∀ c : Fin 128, x6 (ix2 (0 : Fin 1) c) = b4 (ix1 c)) (c : Fin 128) :
    stream Xl (withBias33 W1 b1) x2 x3 (withBias65 W3 b3) x5 x6 (ix2 p c)
      = SiameseSpec.outAt W1 b1 W2 b2 W3 b3 W4 b4 s n B c := by
  rw [stream_apply]
  unfold SiameseSpec.outAt SiameseSpec.hid3
  rw [h6]
  refine congrArg (· + _) (Finset.sum_congr rfl fun J _ => ?_)
  rw [h5, withBias65_last W3 b3 _ rfl J]
  refine congrArg (fun s => max (s + _) 0 * _) (congrArg₂ (· + ·) (Finset.sum_congr rfl fun k _ => ?_)
    (Finset.sum_congr rfl fun k _ => ?_))
  · rw [emb_spec W1 b1 W2 b2 s Xl x2 x3 _ B hXs h2 h3 k, withBias65_entry W3 b3 ⟨k.val, by omega⟩ _ rfl J]
  · rw [emb_spec W1 b1 W2 b2 n Xl x2 x3 _ B hXn h2 h3 k, withBias65_entry W3 b3 ⟨32 + k.val, by omega⟩ _ rfl J]

end Cert.KernelIdeal.Stream

end
-- ==== Proof.Blocks.lean ====
/-
  Each window's block at a grid point, as a function of the arguments.

  The grid has four points. At point `t` the stacked input's window holds rows `8192 t .. 8192 t + 8191`
  and the output's window rows `4096 t .. 4096 t + 4095`; every other window holds its whole array at every
  point (its index map is constantly zero).
-/
import proofs.«152644_g11802570129985_cont_fleet_79_15_alg».proof.Proof.Arrays

noncomputable section

namespace Cert.KernelIdeal.Blocks

open Cert.KernelIdeal Cert.KernelIdeal.Gen Cert.KernelIdeal.Arrays Idealize.ShloMosaic Idealize.ShloMosaic.TcCoe
open Idealize.ShloMosaic.ValueIdx Idealize.SL.Sem

variable (m : (ℓ : Loc nD τ sig) → Buf (Elt Ideal) ℓ)

/-- The printed index maps, decided over the grid. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- Row `y` of the stacked input's block at point `t` is row `8192 t + y` of the stacked input. -/
theorem blk0_apply (c : Dev nD) (t : Fin cfg0.N) (y : Fin 8192) (K : Fin 33) (R : Fin 32768)
    (hR : R.val = 8192 * t.val + y.val) :
    (iblk m c 0 t : S8192x33.Idx → EReal) (ix2 y K)
      = stacked (m ((c : Thread nD τ).loc main_arg0)) (m ((c : Thread nD τ).loc main_arg1)) (ix2 R K) := by
  rw [← V_stacked m c]
  show V m c main_v8 (((cfg0.win 0).blk t).view.emb (ix2 y K)) = V m c main_v8 (ix2 R K)
  refine congrArg (V m c main_v8) (funext fun a => Fin.ext ?_)
  obtain ⟨e0, e1, -⟩ := idx_facts t
  match a with
  | ⟨0, _⟩ => show win0_0.index t (0 : Fin 2) * 8192 + 1 * y.val = R.val; omega
  | ⟨1, _⟩ => show win0_0.index t (1 : Fin 2) * 33 + 1 * K.val = K.val; omega

/-- The first weight block is the whole augmented matrix. -/
theorem blk1_eq (c : Dev nD) (t : Fin cfg0.N) : (iblk m c 1 t : S33x4096.Idx → EReal)
    = withBias33 (m ((c : Thread nD τ).loc main_arg2)) (m ((c : Thread nD τ).loc main_arg3)) := by
  rw [← V_w1 m c]
  funext y
  show V m c main_v11 (((cfg0.win 1).blk t).view.emb y) = V m c main_v11 y
  refine congrArg (V m c main_v11) (funext fun a => Fin.ext ?_)
  obtain ⟨-, -, e0, e1, -⟩ := idx_facts t
  match a with
  | ⟨0, _⟩ => show win0_1.index t (0 : Fin 2) * 33 + 1 * (y 0).val = (y 0).val; omega
  | ⟨1, _⟩ => show win0_1.index t (1 : Fin 2) * 4096 + 1 * (y 1).val = (y 1).val; omega

/-- The second weight block is the second weight matrix. -/
theorem blk2_apply (c : Dev nD) (t : Fin cfg0.N) (J : Fin 4096) (q : Fin 32) :
    (iblk m c 2 t : S4096x32.Idx → EReal) (ix2 J q) = m ((c : Thread nD τ).loc main_arg4) (ix2 J q) := by
  refine Eq.trans ?_ (congrFun (V_w2 m c) (ix2 J q))
  show V m c main_v15 (((cfg0.win 2).blk t).view.emb (ix2 J q)) = V m c main_v15 (ix2 J q)
  refine congrArg (V m c main_v15) (funext fun a => Fin.ext ?_)
  obtain ⟨-, -, -, -, e0, e1, -⟩ := idx_facts t
  match a with
  | ⟨0, _⟩ => show win0_2.index t (0 : Fin 2) * 4096 + 1 * J.val = J.val; omega
  | ⟨1, _⟩ => show win0_2.index t (1 : Fin 2) * 32 + 1 * q.val = q.val; omega

/-- The second bias block is the second bias as one row. -/
theorem blk3_apply (c : Dev nD) (t : Fin cfg0.N) (q : Fin 32) :
    (iblk m c 3 t : S1x32.Idx → EReal) (ix2 (0 : Fin 1) q) = m ((c : Thread nD τ).loc main_arg5) (ix1 q) := by
  refine Eq.trans ?_ ((congrFun (V_b2 m c) (ix2 (0 : Fin 1) q)).trans (shapeCast_a_1a_apply _ shapeCasts_S32_S1x32 0 q))
  show V m c main_v16 (((cfg0.win 3).blk t).view.emb (ix2 (0 : Fin 1) q)) = V m c main_v16 (ix2 (0 : Fin 1) q)
  refine congrArg (V m c main_v16) (funext fun a => Fin.ext ?_)
  obtain ⟨-, -, -, -, -, -, e0, e1, -⟩ := idx_facts t
  match a with
  | ⟨0, _⟩ => show win0_3.index t (0 : Fin 2) * 1 + 1 * 0 = 0; omega
  | ⟨1, _⟩ => show win0_3.index t (1 : Fin 2) * 32 + 1 * q.val = q.val; omega

/-- The third weight block is the whole augmented matrix. -/
theorem blk4_eq (c : Dev nD) (t : Fin cfg0.N) : (iblk m c 4 t : S65x4096.Idx → EReal)
    = withBias65 (m ((c : Thread nD τ).loc main_arg6)) (m ((c : Thread nD τ).loc main_arg7)) := by
  rw [← V_w3 m c]
  funext y
  show V m c main_v14 (((cfg0.win 4).blk t).view.emb y) = V m c main_v14 y
  refine congrArg (V m c main_v14) (funext fun a => Fin.ext ?_)
  obtain ⟨-, -, -, -, -, -, -, -, e0, e1, -⟩ := idx_facts t
  match a with
  | ⟨0, _⟩ => show win0_4.index t (0 : Fin 2) * 65 + 1 * (y 0).val = (y 0).val; omega
  | ⟨1, _⟩ => show win0_4.index t (1 : Fin 2) * 4096 + 1 * (y 1).val = (y 1).val; omega

/-- The fourth weight block is the fourth weight matrix. -/
theorem blk5_apply (c : Dev nD) (t : Fin cfg0.N) (J : Fin 4096) (n : Fin 128) :
    (iblk m c 5 t : S4096x128.Idx → EReal) (ix2 J n) = m ((c : Thread nD τ).loc main_arg8) (ix2 J n) := by
  refine Eq.trans ?_ (congrFun (V_w4 m c) (ix2 J n))
  show V m c main_v17 (((cfg0.win 5).blk t).view.emb (ix2 J n)) = V m c main_v17 (ix2 J n)
  refine congrArg (V m c main_v17) (funext fun a => Fin.ext ?_)
  obtain ⟨-, -, -, -, -, -, -, -, -, -, e0, e1, -⟩ := idx_facts t
  match a with
  | ⟨0, _⟩ => show win0_5.index t (0 : Fin 2) * 4096 + 1 * J.val = J.val; omega
  | ⟨1, _⟩ => show win0_5.index t (1 : Fin 2) * 128 + 1 * n.val = n.val; omega

/-- The fourth bias block is the fourth bias as one row. -/
theorem blk6_apply (c : Dev nD) (t : Fin cfg0.N) (n : Fin 128) :
    (iblk m c 6 t : S1x128.Idx → EReal) (ix2 (0 : Fin 1) n) = m ((c : Thread nD τ).loc main_arg9) (ix1 n) := by
  refine Eq.trans ?_ ((congrFun (V_b4 m c) (ix2 (0 : Fin 1) n)).trans (shapeCast_a_1a_apply _ shapeCasts_S128_S1x128 0 n))
  show V m c main_v18 (((cfg0.win 6).blk t).view.emb (ix2 (0 : Fin 1) n)) = V m c main_v18 (ix2 (0 : Fin 1) n)
  refine congrArg (V m c main_v18) (funext fun a => Fin.ext ?_)
  obtain ⟨-, -, -, -, -, -, -, -, -, -, -, -, e0, e1, -⟩ := idx_facts t
  match a with
  | ⟨0, _⟩ => show win0_6.index t (0 : Fin 2) * 1 + 1 * 0 = 0; omega
  | ⟨1, _⟩ => show win0_6.index t (1 : Fin 2) * 128 + 1 * n.val = n.val; omega

end Cert.KernelIdeal.Blocks

end
-- ==== Proof.KernelValue.lean ====
/-
  The kernel's result array is the network's output.

  At grid point `t` the first stream reads rows `0..4095` of the input block, which are rows
  `8192 t .. 8192 t + 4095` of the stacked input: group `2 t`, that is batch rows `4096 t .. 4096 t + 2047` of both
  inputs; it writes rows `0..2047` of the output block. The second stream reads rows `4096..8191`: group
  `2 t + 1`, batch rows `4096 t + 2048 ..`, written to rows `2048..4095`. So the output block is rows
  `4096 t .. 4096 t + 4095` of the network's output, and the four blocks tile the array.
-/
import proofs.«152644_g11802570129985_cont_fleet_79_15_alg».proof.Proof.Gen.KernelIdeal.Value
import proofs.«152644_g11802570129985_cont_fleet_79_15_alg».proof.Proof.StreamSpec
import proofs.«152644_g11802570129985_cont_fleet_79_15_alg».proof.Proof.Blocks

noncomputable section

namespace Cert.KernelIdeal.Whole

open Cert.KernelIdeal Cert.KernelIdeal.Gen Cert.KernelIdeal.Arrays Cert.KernelIdeal.Blocks Cert.KernelIdeal.Stream
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The network's output of core `c`'s argument arrays. -/
def G (c : Dev nD) : S16384x128.Idx → EReal :=
  SiameseSpec.out (m ((c : Thread nD τ).loc main_arg2)) (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8)) (m ((c : Thread nD τ).loc main_arg9))
    (m ((c : Thread nD τ).loc main_arg0)) (m ((c : Thread nD τ).loc main_arg1))

theorem t_lt (t : Fin cfg0.N) : t.val < 4 := by
  have h := t.isLt
  have e : cfg0.N = 4 := N_0
  omega

/-- The stream fed from row offset `o` (0 or 4096) of the input block at point `t` computes the network's
    rows `4096 t + o / 2 ..`. -/
theorem stream_at_point (c : Dev nD) (t : Fin cfg0.N) (o : ℕ) (ho : o = 0 ∨ o = 4096)
    (inb : ∀ a, (![o, 0] : Fin 2 → ℕ) a + S4096x33.size a ≤ S8192x33.size a)
    (p : Fin 2048) (n : Fin 128) (B : Fin 16384) (hB : B.val = 4096 * t.val + o / 2 + p.val) :
    stream (View.ld (iblk m c 0 t) (Rect.unit (s := S8192x33) ![o, 0] S4096x33.size inb)) (iblk m c 1 t) (iblk m c 2 t)
      (iblk m c 3 t) (iblk m c 4 t) (iblk m c 5 t) (iblk m c 6 t) (ix2 p n) = G m c (ix2 B n) := by
  have ht := t_lt t
  have e1 := blk1_eq m c t
  have e4 := blk4_eq m c t
  unfold G
  rw [SiameseSpec.out_apply]
  have key := stream_spec (m ((c : Thread nD τ).loc main_arg2)) (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8)) (m ((c : Thread nD τ).loc main_arg9))
    (m ((c : Thread nD τ).loc main_arg0)) (m ((c : Thread nD τ).loc main_arg1))
    (View.ld (iblk m c 0 t) (Rect.unit (s := S8192x33) ![o, 0] S4096x33.size inb)) (iblk m c 2 t) (iblk m c 3 t)
    (iblk m c 5 t) (iblk m c 6 t) B p
    (fun K => by
      refine (ld_at (iblk m c 0 t : Vec Ideal S8192x33 .bf16) o 0 inb (⟨p.val, by omega⟩ : Fin 4096) K
        (⟨o + p.val, by omega⟩ : Fin 8192) K rfl (Nat.zero_add _).symm).trans ?_
      refine (blk0_apply m c t (⟨o + p.val, by omega⟩ : Fin 8192) K (⟨8192 * t.val + (o + p.val), by omega⟩ : Fin 32768) rfl).trans ?_
      exact stacked_first _ _ (⟨2 * t.val + o / 4096, by omega⟩ : Fin 8) p K _ (by show 8192 * t.val + (o + p.val) = 4096 * (2 * t.val + o / 4096) + p.val; omega) B
        (by show B.val = 2048 * (2 * t.val + o / 4096) + p.val; omega))
    (fun K => by
      refine (ld_at (iblk m c 0 t : Vec Ideal S8192x33 .bf16) o 0 inb (⟨2048 + p.val, by omega⟩ : Fin 4096) K
        (⟨o + (2048 + p.val), by omega⟩ : Fin 8192) K rfl (Nat.zero_add _).symm).trans ?_
      refine (blk0_apply m c t (⟨o + (2048 + p.val), by omega⟩ : Fin 8192) K (⟨8192 * t.val + (o + (2048 + p.val)), by omega⟩ : Fin 32768) rfl).trans ?_
      exact stacked_second _ _ (⟨2 * t.val + o / 4096, by omega⟩ : Fin 8) p K _ (by show 8192 * t.val + (o + (2048 + p.val)) = 4096 * (2 * t.val + o / 4096) + 2048 + p.val; omega) B
        (by show B.val = 2048 * (2 * t.val + o / 4096) + p.val; omega))
    (blk2_apply m c t) (blk3_apply m c t) (blk5_apply m c t) (blk6_apply m c t) n
  rw [← e1, ← e4] at key
  exact key

/-- Rows `4096 t ..` of the network's output, by the output block's index. -/
def Gblk (c : Dev nD) (t : Fin cfg0.N) : S4096x128.Idx → EReal := fun y =>
  G m c (ix2 (⟨4096 * t.val + (y 0).val, by have := t_lt t; have h : (y 0).val < 4096 := (y 0).isLt; omega⟩ : Fin 16384)
    (⟨(y 1).val, (y 1).isLt⟩ : Fin 128))

/-- Both stores' payloads are blocks of that one function. -/
theorem pieces (c : Dev nD) (t : Fin cfg0.N) :
    ∀ pc ∈ ([⟨r0_37, stream (View.ld (iblk m c 0 t) r0_36) (iblk m c 1 t) (iblk m c 2 t) (iblk m c 3 t) (iblk m c 4 t) (iblk m c 5 t) (iblk m c 6 t)⟩,
        ⟨r0_35, stream (View.ld (iblk m c 0 t) r0_0) (iblk m c 1 t) (iblk m c 2 t) (iblk m c 3 t) (iblk m c 4 t) (iblk m c 5 t) (iblk m c 6 t)⟩]
          : List (View.Piece (Elt Ideal) S4096x128 .f32)),
      ∀ x : pc.1.shape.Idx, pc.2 x = Gblk m c t (pc.1.emb x) := by
  have ht := t_lt t
  intro pc hpc x
  rcases List.mem_cons.mp hpc with rfl | hpc
  · obtain ⟨p, n, rfl⟩ : ∃ (p : Fin 2048) (n : Fin 128), x = ix2 p n := ⟨x 0, x 1, eq_ix2 x⟩
    refine (stream_at_point m c t 4096 (Or.inr rfl) inb_S8192x33_S4096x33_4096_0 p n
      (⟨4096 * t.val + 2048 + p.val, by omega⟩ : Fin 16384) rfl).trans ?_
    unfold Gblk
    refine congrArg (G m c) (funext fun a => Fin.ext ?_)
    match a with
    | ⟨0, _⟩ => show 4096 * t.val + 2048 + p.val = 4096 * t.val + (2048 + 1 * p.val); omega
    | ⟨1, _⟩ => show n.val = 0 + 1 * n.val; omega
  · rw [List.mem_singleton] at hpc
    subst hpc
    obtain ⟨p, n, rfl⟩ : ∃ (p : Fin 2048) (n : Fin 128), x = ix2 p n := ⟨x 0, x 1, eq_ix2 x⟩
    refine (stream_at_point m c t 0 (Or.inl rfl) inb_S8192x33_S4096x33_0_0 p n
      (⟨4096 * t.val + 0 + p.val, by omega⟩ : Fin 16384) rfl).trans ?_
    unfold Gblk
    refine congrArg (G m c) (funext fun a => Fin.ext ?_)
    match a with
    | ⟨0, _⟩ => show 4096 * t.val + 0 + p.val = 4096 * t.val + (0 + 1 * p.val); omega
    | ⟨1, _⟩ => show n.val = 0 + 1 * n.val; omega

/-- What point `t` writes back is block `t` of the network's output. -/
theorem flushed_eq (c : Dev nD) (t : Fin cfg0.N) :
    (dats m 0 c).flushed 7 t = ((cfg0.win 7).blk t).view.read (Elt Ideal) (G m c) := by
  have e := out0_7_eq (F := Ideal) (iblk m c 0 t) (iblk m c 1 t) (iblk m c 2 t) (iblk m c 3 t) (iblk m c 4 t) (iblk m c 5 t) (iblk m c 6 t)
  rw [Value.flushed7, e]
  funext y
  show View.canon (Val := Elt Ideal) (s := S4096x128) (e := .f32) _ y = G m c (((cfg0.win 7).blk t).view.emb y)
  rw [View.canon_apply_of_pieces (Gblk m c t) _ (pieces m c t) y (cover0_7 _ _ y)]
  unfold Gblk
  refine congrArg (G m c) (funext fun a => Fin.ext ?_)
  obtain ⟨-, -, -, -, -, -, -, -, -, -, -, -, -, -, e0, e1⟩ := idx_facts t
  match a with
  | ⟨0, _⟩ => show 4096 * t.val + (y 0).val = win0_7.index t (0 : Fin 2) * 4096 + 1 * (y 0).val; omega
  | ⟨1, _⟩ => show (y 1).val = win0_7.index t (1 : Fin 2) * 128 + 1 * (y 1).val; omega

/-- An index of the array is in point `t`'s block iff each coordinate is in the block's range on its axis. -/
theorem mem_blk (t : Fin cfg0.N) (i : S16384x128.Idx) :
    i ∈ ((cfg0.win 7).blk t).view.set ↔ ∀ a : Fin 2, win0_7.index t a * S4096x128.size a ≤ (i a).val
      ∧ (i a).val < win0_7.index t a * S4096x128.size a + S4096x128.size a := by
  show i ∈ ((View.whole main_v19).slice (win0_7.rect t)).set ↔ _
  rw [View.set_slice_whole, Rect.mem_set_unit]
  exact Iff.rfl

/-- Every row of the output is in some point's block: row `r` in point `r / 4096`'s. -/
theorem cover (i : S16384x128.Idx) :
    ∃ t : Fin cfg0.N, (cfg0.win 7).flush t = true ∧ i ∈ ((cfg0.win 7).blk t).view.set := by
  have hi0 : (i 0).val < 16384 := (i 0).isLt
  have hi1 : (i 1).val < 128 := (i 1).isLt
  have hN : cfg0.N = 4 := N_0
  refine ⟨⟨(i 0).val / 4096, by omega⟩, flush0_7 _, ?_⟩
  rw [mem_blk]
  obtain ⟨-, -, -, -, -, -, -, -, -, -, -, -, -, -, e0, e1⟩ := idx_facts (⟨(i 0).val / 4096, by omega⟩ : Fin cfg0.N)
  have e0' : win0_7.index (⟨(i 0).val / 4096, by omega⟩ : Fin cfg0.N) (0 : Fin 2) = (i 0).val / 4096 := e0
  intro a
  match a with
  | ⟨0, _⟩ =>
    show win0_7.index _ (0 : Fin 2) * 4096 ≤ (i 0).val ∧ (i 0).val < win0_7.index _ (0 : Fin 2) * 4096 + 4096
    omega
  | ⟨1, _⟩ =>
    show win0_7.index _ (1 : Fin 2) * 128 ≤ (i 1).val ∧ (i 1).val < win0_7.index _ (1 : Fin 2) * 128 + 128
    omega

/-- The result array after the run. -/
theorem final (c : Dev nD) : (dats m 0 c).arrAt 7 cfg0.N = G m c :=
  (dats m 0 c).arrAt_eq_of_cover 7 (G m c) (fun t _ => flushed_eq m c t) cover

/-- The kernel's run: the result array is the network's output, the arguments are unchanged. -/
theorem run : θ_run defs (onTc (τ := τ) (main (F := Ideal))) ⟨m, fun _ => 0, ρ⟩ fun r => ∀ c : Dev nD,
      r.2.mem ((c : Thread nD τ).loc main_v19) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final m c), (h c).2⟩) (Value.run_blocks m ρ)

end Cert.KernelIdeal.Whole

end
-- ==== Proof.RefValue.lean ====
/-
  The reference computes the network.

  Read stage by stage: a branch's first product plus its bias, its ReLU, the second product plus its
  bias, its ReLU; the two branches' embeddings joined along the columns, so that the joint product's sum
  over 64 columns is the sum over the first branch's 32 plus the sum over the second's; bias, ReLU, the last
  product, bias. Each ReLU's zero is the extended real zero.
-/
import proofs.«152644_g11802570129985_cont_fleet_79_15_alg».proof.Proof.Gen.ReferenceIdeal.Read
import proofs.«152644_g11802570129985_cont_fleet_79_15_alg».proof.Proof.Spec
import proofs.«152644_g11802570129985_cont_fleet_79_15_alg».proof.Proof.SumLaws
import Idealize.ShloMosaic.Lib.IdealHost

noncomputable section

namespace Cert.ReferenceIdeal.RefValue

open Cert.ReferenceIdeal Cert.ReferenceIdeal.Gen Cert.ReferenceIdeal.Read Idealize.ShloMosaic Idealize.ShloMosaic.TcCoe
open Idealize.ShloMosaic.ValueIdx

variable (x0 x1 : (⟨S16384x32, .f32⟩ : BufTy).Contents (Elt Ideal)) (x2 : (⟨S32x4096, .f32⟩ : BufTy).Contents (Elt Ideal)) (x3 : (⟨S4096, .f32⟩ : BufTy).Contents (Elt Ideal))
  (x4 : (⟨S4096x32, .f32⟩ : BufTy).Contents (Elt Ideal)) (x5 : (⟨S32, .f32⟩ : BufTy).Contents (Elt Ideal)) (x6 : (⟨S64x4096, .f32⟩ : BufTy).Contents (Elt Ideal)) (x7 : (⟨S4096, .f32⟩ : BufTy).Contents (Elt Ideal))
  (x8 : (⟨S4096x128, .f32⟩ : BufTy).Contents (Elt Ideal)) (x9 : (⟨S128, .f32⟩ : BufTy).Contents (Elt Ideal))

/-! ## The ReLUs' zero arrays -/

theorem zero0 (i : S16384x4096.Idx) : val_main_call0_v0 (F := Ideal) i = 0 := by
  rw [val_main_call0_v0_apply, val_main_call0_cst_apply]; exact Ideal.ofBits_zero_f32
theorem zero1 (i : S16384x32.Idx) : val_main_call1_v0 (F := Ideal) i = 0 := by
  rw [val_main_call1_v0_apply, val_main_call1_cst_apply]; exact Ideal.ofBits_zero_f32
theorem zero2 (i : S16384x4096.Idx) : val_main_call2_v0 (F := Ideal) i = 0 := by
  rw [val_main_call2_v0_apply, val_main_call2_cst_apply]; exact Ideal.ofBits_zero_f32
theorem zero3 (i : S16384x32.Idx) : val_main_call3_v0 (F := Ideal) i = 0 := by
  rw [val_main_call3_v0_apply, val_main_call3_cst_apply]; exact Ideal.ofBits_zero_f32
theorem zero4 (i : S16384x4096.Idx) : val_main_call4_v0 (F := Ideal) i = 0 := by
  rw [val_main_call4_v0_apply, val_main_call4_cst_apply]; exact Ideal.ofBits_zero_f32

/-! ## The operand indices of each product and bias, by coordinates -/

theorem l0 (B : Fin 16384) (J : Fin 4096) (k : Fin 32) : lidx_main_v0 (ix2 B J) k = ix2 B k :=
  funext fun a => Fin.ext (by match a with | ⟨0, _⟩ => rfl | ⟨1, _⟩ => rfl)
theorem r0 (B : Fin 16384) (J : Fin 4096) (k : Fin 32) : ridx_main_v0 (ix2 B J) k = ix2 k J :=
  funext fun a => Fin.ext (by match a with | ⟨0, _⟩ => rfl | ⟨1, _⟩ => rfl)
theorem bias2 (B : Fin 16384) (J : Fin 4096) : idx_main_v1 (idx_main_v2 (ix2 B J)) = ix1 J :=
  funext fun a => Fin.ext (by match a with | ⟨0, _⟩ => rfl)
theorem l10 (B : Fin 16384) (J : Fin 4096) (k : Fin 32) : lidx_main_v10 (ix2 B J) k = ix2 B k :=
  funext fun a => Fin.ext (by match a with | ⟨0, _⟩ => rfl | ⟨1, _⟩ => rfl)
theorem r10 (B : Fin 16384) (J : Fin 4096) (k : Fin 32) : ridx_main_v10 (ix2 B J) k = ix2 k J :=
  funext fun a => Fin.ext (by match a with | ⟨0, _⟩ => rfl | ⟨1, _⟩ => rfl)
theorem bias12 (B : Fin 16384) (J : Fin 4096) : idx_main_v11 (idx_main_v12 (ix2 B J)) = ix1 J :=
  funext fun a => Fin.ext (by match a with | ⟨0, _⟩ => rfl)
theorem l5 (B : Fin 16384) (q : Fin 32) (J : Fin 4096) : lidx_main_v5 (ix2 B q) J = ix2 B J :=
  funext fun a => Fin.ext (by match a with | ⟨0, _⟩ => rfl | ⟨1, _⟩ => rfl)
theorem r5 (B : Fin 16384) (q : Fin 32) (J : Fin 4096) : ridx_main_v5 (ix2 B q) J = ix2 J q :=
  funext fun a => Fin.ext (by match a with | ⟨0, _⟩ => rfl | ⟨1, _⟩ => rfl)
theorem bias7 (B : Fin 16384) (q : Fin 32) : idx_main_v6 (idx_main_v7 (ix2 B q)) = ix1 q :=
  funext fun a => Fin.ext (by match a with | ⟨0, _⟩ => rfl)
theorem l15 (B : Fin 16384) (q : Fin 32) (J : Fin 4096) : lidx_main_v15 (ix2 B q) J = ix2 B J :=
  funext fun a => Fin.ext (by match a with | ⟨0, _⟩ => rfl | ⟨1, _⟩ => rfl)
theorem r15 (B : Fin 16384) (q : Fin 32) (J : Fin 4096) : ridx_main_v15 (ix2 B q) J = ix2 J q :=
  funext fun a => Fin.ext (by match a with | ⟨0, _⟩ => rfl | ⟨1, _⟩ => rfl)
theorem bias17 (B : Fin 16384) (q : Fin 32) : idx_main_v16 (idx_main_v17 (ix2 B q)) = ix1 q :=
  funext fun a => Fin.ext (by match a with | ⟨0, _⟩ => rfl)
theorem l21 (B : Fin 16384) (J : Fin 4096) (K : Fin 64) : lidx_main_v21 (ix2 B J) K = ix2 B K :=
  funext fun a => Fin.ext (by match a with | ⟨0, _⟩ => rfl | ⟨1, _⟩ => rfl)
theorem r21 (B : Fin 16384) (J : Fin 4096) (K : Fin 64) : ridx_main_v21 (ix2 B J) K = ix2 K J :=
  funext fun a => Fin.ext (by match a with | ⟨0, _⟩ => rfl | ⟨1, _⟩ => rfl)
theorem bias23 (B : Fin 16384) (J : Fin 4096) : idx_main_v22 (idx_main_v23 (ix2 B J)) = ix1 J :=
  funext fun a => Fin.ext (by match a with | ⟨0, _⟩ => rfl)
theorem l26 (B : Fin 16384) (c : Fin 128) (J : Fin 4096) : lidx_main_v26 (ix2 B c) J = ix2 B J :=
  funext fun a => Fin.ext (by match a with | ⟨0, _⟩ => rfl | ⟨1, _⟩ => rfl)
theorem r26 (B : Fin 16384) (c : Fin 128) (J : Fin 4096) : ridx_main_v26 (ix2 B c) J = ix2 J c :=
  funext fun a => Fin.ext (by match a with | ⟨0, _⟩ => rfl | ⟨1, _⟩ => rfl)
theorem bias28 (B : Fin 16384) (c : Fin 128) : idx_main_v27 (idx_main_v28 (ix2 B c)) = ix1 c :=
  funext fun a => Fin.ext (by match a with | ⟨0, _⟩ => rfl)

/-! ## The stages -/

/-- The first branch's hidden layer. -/
theorem hid_s (B : Fin 16384) (J : Fin 4096) :
    val_main_v4 (F := Ideal) x0 x2 x3 (ix2 B J) = SiameseSpec.hid x2 x3 x0 B J := by
  unfold SiameseSpec.hid
  rw [val_main_v4_apply, val_main_v3_apply, val_main_v0_apply, val_main_v2_apply, val_main_v1_apply, zero0]
  simp only [l0, r0, bias2, Ideal.addf_def, Ideal.maximumf_def]

/-- The second branch's hidden layer. -/
theorem hid_n (B : Fin 16384) (J : Fin 4096) :
    val_main_v14 (F := Ideal) x1 x2 x3 (ix2 B J) = SiameseSpec.hid x2 x3 x1 B J := by
  unfold SiameseSpec.hid
  rw [val_main_v14_apply, val_main_v13_apply, val_main_v10_apply, val_main_v12_apply, val_main_v11_apply, zero2]
  simp only [l10, r10, bias12, Ideal.addf_def, Ideal.maximumf_def]

/-- The first branch's embedding. -/
theorem emb_s (B : Fin 16384) (q : Fin 32) :
    val_main_v9 (F := Ideal) x0 x2 x3 x4 x5 (ix2 B q) = SiameseSpec.emb x2 x3 x4 x5 x0 B q := by
  unfold SiameseSpec.emb
  rw [val_main_v9_apply, val_main_v8_apply, val_main_v5_apply, val_main_v7_apply, val_main_v6_apply, zero1]
  simp only [l5, r5, bias7, hid_s, Ideal.addf_def, Ideal.maximumf_def]

/-- The second branch's embedding. -/
theorem emb_n (B : Fin 16384) (q : Fin 32) :
    val_main_v19 (F := Ideal) x1 x2 x3 x4 x5 (ix2 B q) = SiameseSpec.emb x2 x3 x4 x5 x1 B q := by
  unfold SiameseSpec.emb
  rw [val_main_v19_apply, val_main_v18_apply, val_main_v15_apply, val_main_v17_apply, val_main_v16_apply, zero3]
  simp only [l15, r15, bias17, hid_n, Ideal.addf_def, Ideal.maximumf_def]

/-- Columns 0..31 of the joined embeddings are the first branch's. -/
theorem joined_first (B : Fin 16384) (k : Fin 32) (K : Fin 64) (hK : K.val = k.val) :
    val_main_v20 (F := Ideal) x0 x1 x2 x3 x4 x5 (ix2 B K) = val_main_v9 (F := Ideal) x0 x2 x3 x4 x5 (ix2 B k) := by
  unfold val_main_v20
  exact concatenate_pair_apply_left 1 _ _ concatenates_S16384x32_S16384x32_S16384x64_d1 (ix2 B K) rfl (ix2 B k)
    (fun b => by
      match b with
      | ⟨0, _⟩ => rfl
      | ⟨1, _⟩ => exact hK.symm)

/-- Columns 32..63 are the second branch's. -/
theorem joined_second (B : Fin 16384) (k : Fin 32) (K : Fin 64) (hK : K.val = 32 + k.val) :
    val_main_v20 (F := Ideal) x0 x1 x2 x3 x4 x5 (ix2 B K) = val_main_v19 (F := Ideal) x1 x2 x3 x4 x5 (ix2 B k) := by
  unfold val_main_v20
  exact concatenate_pair_apply_right 1 _ _ concatenates_S16384x32_S16384x32_S16384x64_d1 (ix2 B K) rfl rfl (ix2 B k)
    (fun b hb => by
      match b with
      | ⟨0, _⟩ => rfl
      | ⟨1, _⟩ => exact absurd rfl hb)
    (by show k.val + 32 = K.val; omega)

/-- The joint hidden layer. -/
theorem hid3_eq (B : Fin 16384) (J : Fin 4096) :
    val_main_v25 (F := Ideal) x0 x1 x2 x3 x4 x5 x6 x7 (ix2 B J) = SiameseSpec.hid3 x2 x3 x4 x5 x6 x7 x0 x1 B J := by
  unfold SiameseSpec.hid3
  rw [val_main_v25_apply, val_main_v24_apply, val_main_v21_apply, val_main_v23_apply, val_main_v22_apply, zero4,
    SiameseSums.sum_split 32 32]
  simp only [Ideal.addf_def, Ideal.maximumf_def, bias23, l21, r21]
  refine congrArg (fun s => max (s + _) 0) (congrArg₂ (· + ·) (Finset.sum_congr rfl fun k _ => ?_)
    (Finset.sum_congr rfl fun k _ => ?_))
  · rw [joined_first x0 x1 x2 x3 x4 x5 B k _ rfl, emb_s]
  · rw [joined_second x0 x1 x2 x3 x4 x5 B k _ rfl, emb_n]

/-- The output entry. -/
theorem out_eq (B : Fin 16384) (c : Fin 128) :
    val_main_v29 (F := Ideal) x0 x1 x2 x3 x4 x5 x6 x7 x8 x9 (ix2 B c)
      = SiameseSpec.outAt x2 x3 x4 x5 x6 x7 x8 x9 x0 x1 B c := by
  unfold SiameseSpec.outAt
  rw [val_main_v29_apply, val_main_v26_apply, val_main_v28_apply, val_main_v27_apply]
  simp only [l26, r26, bias28, hid3_eq, Ideal.addf_def]

/-- The reference's result array is the network's output. -/
theorem result_eq :
    val_main_v29 (F := Ideal) x0 x1 x2 x3 x4 x5 x6 x7 x8 x9 = SiameseSpec.out x2 x3 x4 x5 x6 x7 x8 x9 x0 x1 := by
  funext i
  obtain ⟨B, c, rfl⟩ : ∃ (B : Fin 16384) (c : Fin 128), i = ix2 B c := ⟨i 0, i 1, eq_ix2 i⟩
  rw [out_eq, SiameseSpec.out_apply]

end Cert.ReferenceIdeal.RefValue

end
-- ==== Proof.lean ====
/-
  A two-branch network: each of two inputs `s`, `n` (16384 rows of 32) goes through
  `x ↦ relu (relu (x · W1 + b1) · W2 + b2)` to a 32-wide embedding; the two embeddings, side by side, go
  through `u ↦ relu (u · W3 + b3) · W4 + b4` to 128 outputs per row.

  The reference computes exactly that. The kernel stacks the two inputs row group by row group, appends a
  column of ones to them and the biases `b1`, `b3` as a last row to `W1`, `W3`, so that each bias comes out
  of its matrix product; it walks the 4096-wide hidden axes in eight slabs of 512, accumulating onto the
  next layer's bias; and it handles two row streams of 2048 batch rows per grid point, four points in all.

  At the ideal values every narrowing is the identity, and the two differ only in how sums are grouped and
  in the factor `1` in front of a bias: commutativity and associativity of addition on the extended reals
  and `1 * b = b` (Proof/SumLaws.lean). No law that needs finite entries is used, so the precondition is
  never opened.

  The modules:
    * Proof/Spec.lean        the network as one function of the ten argument arrays, index by index;
    * Proof/Body.lean        the kernel body as one function of a row stream (equal to the printed payloads
                             by unfolding), Proof/BodyAt.lean and Proof/StreamAt.lean that function at an index;
    * Proof/Arrays.lean      the arrays the host builds for the windows, read at an index; Proof/Blocks.lean
                             each window's block at a grid point;
    * Proof/StreamSpec.lean  a stream fed a batch row's stacked rows computes the network's row;
    * Proof/KernelValue.lean the blocks tile the result array: the kernel's run ends at the network's output;
    * Proof/RefValue.lean    the reference's run ends at the network's output.
  The three frames are the generated ones (the reference's is its generated run with the result dropped);
  the idealization rewrote nothing, so `preserves` is `True`.
-/
import proofs.«152644_g11802570129985_cont_fleet_79_15_alg».proof.Defs
import proofs.«152644_g11802570129985_cont_fleet_79_15_alg».proof.Proof.Gen.Kernel
import proofs.«152644_g11802570129985_cont_fleet_79_15_alg».proof.Proof.Gen.Kernel.Skeleton
import proofs.«152644_g11802570129985_cont_fleet_79_15_alg».proof.Proof.Gen.Kernel.Launch
import proofs.«152644_g11802570129985_cont_fleet_79_15_alg».proof.Proof.Gen.Kernel.Points
import proofs.«152644_g11802570129985_cont_fleet_79_15_alg».proof.Proof.Gen.Kernel.Frame
import proofs.«152644_g11802570129985_cont_fleet_79_15_alg».proof.Proof.Gen.KernelIdeal
import proofs.«152644_g11802570129985_cont_fleet_79_15_alg».proof.Proof.Gen.KernelIdeal.Skeleton
import proofs.«152644_g11802570129985_cont_fleet_79_15_alg».proof.Proof.Gen.KernelIdeal.Launch
import proofs.«152644_g11802570129985_cont_fleet_79_15_alg».proof.Proof.Gen.KernelIdeal.Points
import proofs.«152644_g11802570129985_cont_fleet_79_15_alg».proof.Proof.Gen.KernelIdeal.Frame
import proofs.«152644_g11802570129985_cont_fleet_79_15_alg».proof.Proof.Gen.ReferenceIdeal
import proofs.«152644_g11802570129985_cont_fleet_79_15_alg».proof.Proof.Gen.Pre_finite_inputs
import proofs.«152644_g11802570129985_cont_fleet_79_15_alg».proof.Proof.Gen.KernelIdeal.Value
import proofs.«152644_g11802570129985_cont_fleet_79_15_alg».proof.Proof.Gen.ReferenceIdeal.Run
import proofs.«152644_g11802570129985_cont_fleet_79_15_alg».proof.Proof.Gen.ReferenceIdeal.Read
import proofs.«152644_g11802570129985_cont_fleet_79_15_alg».proof.Proof.KernelValue
import proofs.«152644_g11802570129985_cont_fleet_79_15_alg».proof.Proof.RefValue
import Idealize.ShloMosaic.Adequacy
import Idealize.ShloMosaic.Init

noncomputable section

namespace Cert.Proof

open Idealize.ShloMosaic Idealize.SL.Sem

namespace Claims

theorem frame_k : Cert.frame_Kernel := fun m ρ _ => Cert.Kernel.Gen.frame m ρ

theorem frame_ki : Cert.frame_KernelIdeal := fun m ρ _ => Cert.KernelIdeal.Gen.frame m ρ

/-- The reference's frame: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the arguments both runs end at the network's output of those arguments. -/
theorem algebraic : Cert.algebraic_KernelIdeal_ReferenceIdeal := by
  intro m ρ m' ρ' _ hagree
  refine ⟨fun c => Cert.KernelIdeal.Whole.G m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9⟩ := hagree c
  rw [Cert.ReferenceIdeal.Read.val_main_v29_eq, Cert.ReferenceIdeal.RefValue.result_eq, a0, a1, a2, a3, a4, a5, a6, a7, a8, a9]
  rfl

end Claims

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
